-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S64x2048 .f32) (main_arg5 : FVec F S64 .f32) (main_arg6 : FVec F S64 .f32) (main_arg7 : FVec F S1024x2048 .f32) (main_arg8 : FVec F S1024 .f32) (main_arg9 : FVec F S1024 .f32) (main_arg10 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x256x2048 .f32) (main_arg1 : FVec F S64x2048 .f32) (main_arg2 : FVec F S64 .f32) (main_arg3 : FVec F S64 .f32) (main_arg4 : FVec F S64x2048 .f32) (main_arg5 : FVec F S64 .f32) (main_arg6 : FVec F S64 .f32) (main_arg7 : FVec F S1024x2048 .f32) (main_arg8 : FVec F S1024 .f32) (main_arg9 : FVec F S1024 .f32) (main_arg10 : FVec F S1024 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S64x256x2048 : Shape := ⟨3, ![64, 256, 2048]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S_ : Shape := ⟨0, ![]⟩
abbrev S64x1 : Shape := ⟨2, ![64, 1]⟩
abbrev S1x64 : Shape := ⟨2, ![1, 64]⟩
abbrev S64x1x2048 : Shape := ⟨3, ![64, 1, 2048]⟩
abbrev S8x256x2048 : Shape := ⟨3, ![8, 256, 2048]⟩
abbrev S8x1x2048 : Shape := ⟨3, ![8, 1, 2048]⟩
abbrev S2048x2048 : Shape := ⟨2, ![2048, 2048]⟩
abbrev S2048x64 : Shape := ⟨2, ![2048, 64]⟩
abbrev S8x256x64 : Shape := ⟨3, ![8, 256, 64]⟩
abbrev S8x256 : Shape := ⟨2, ![8, 256]⟩
abbrev S8x256x1 : Shape := ⟨3, ![8, 256, 1]⟩
abbrev S8x64 : Shape := ⟨2, ![8, 64]⟩
abbrev S8x1x64 : Shape := ⟨3, ![8, 1, 64]⟩
abbrev S8x2048 : Shape := ⟨2, ![8, 2048]⟩
abbrev S2048x1024 : Shape := ⟨2, ![2048, 1024]⟩
abbrev S64x1024 : Shape := ⟨2, ![64, 1024]⟩
abbrev S1x1024 : Shape := ⟨2, ![1, 1024]⟩

abbrev nBuf : Space → Nat
  | .hbm => 68
  | .vmem => 8
  | .smem => 0
  | _ => 0

abbrev bufTy : (tb : Table) → Fin (tcTables nBuf tb) → BufTy
  | .hbm, ⟨0, _⟩ => ⟨S64x256x2048, .f32⟩
  | .hbm, ⟨1, _⟩ => ⟨S64x2048, .f32⟩
  | .hbm, ⟨2, _⟩ => ⟨S64, .f32⟩
  | .hbm, ⟨3, _⟩ => ⟨S64, .f32⟩
  | .hbm, ⟨4, _⟩ => ⟨S64x2048, .f32⟩
  | .hbm, ⟨5, _⟩ => ⟨S64, .f32⟩
  | .hbm, ⟨6, _⟩ => ⟨S64, .f32⟩
  | .hbm, ⟨7, _⟩ => ⟨S1024x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S64x2048, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S64x2048, .bf16⟩
  | .hbm, ⟨20, _⟩ => ⟨S64x2048, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64x1, .f32⟩
  | .hbm, ⟨26, _⟩ => ⟨S64x2048, .f32⟩
  | .hbm, ⟨27, _⟩ => ⟨S64x2048, .f32⟩
  | .hbm, ⟨28, _⟩ => ⟨S64x2048, .bf16⟩
  | .hbm, ⟨29, _⟩ => ⟨S1x64, .f32⟩
  | .hbm, ⟨30, _⟩ => ⟨S1x64, .f32⟩
  | .hbm, ⟨31, _⟩ => ⟨S64x1x2048, .f32⟩
  | .hbm, ⟨32, _⟩ => ⟨S64x2048, .f32⟩
  | .hbm, ⟨33, _⟩ => ⟨S2048x1024, .f32⟩
  | .hbm, ⟨34, _⟩ => ⟨S64x1024, .f32⟩
  | .hbm, ⟨35, _⟩ => ⟨S1x1024, .f32⟩
  | .hbm, ⟨36, _⟩ => ⟨S64x1024, .f32⟩
  | .hbm, ⟨37, _⟩ => ⟨S64x1024, .f32⟩
  | .hbm, ⟨38, _⟩ => ⟨S_, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S64x1024, .f32⟩
  | .hbm, ⟨45, _⟩ => ⟨S64x1024, .f32⟩
  | .hbm, ⟨46, _⟩ => ⟨S64x1024, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1024, .f32⟩
  | .hbm, ⟨53, _⟩ => ⟨S64x1024, .f32⟩
  | .hbm, ⟨54, _⟩ => ⟨S64x1024, .f32⟩
  | .hbm, ⟨55, _⟩ => ⟨S1x1024, .f32⟩
  | .hbm, ⟨56, _⟩ => ⟨S64x1024, .f32⟩
  | .hbm, ⟨57, _⟩ => ⟨S64x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S64x1024, .f32⟩
  | .hbm, ⟨64, _⟩ => ⟨S64x1024, .f32⟩
  | .hbm, ⟨65, _⟩ => ⟨S1x1024, .f32⟩
  | .hbm, ⟨66, _⟩ => ⟨S64x1024, .f32⟩
  | .hbm, ⟨67, _⟩ => ⟨S64x1024, .f32⟩
  | .local _ .vmem, ⟨0, _⟩ => ⟨S8x256x2048, .f32⟩
  | .local _ .vmem, ⟨1, _⟩ => ⟨S8x256x2048, .f32⟩
  | .local _ .vmem, ⟨2, _⟩ => ⟨S64x2048, .bf16⟩
  | .local _ .vmem, ⟨3, _⟩ => ⟨S1x64, .f32⟩
  | .local _ .vmem, ⟨4, _⟩ => ⟨S64x2048, .bf16⟩
  | .local _ .vmem, ⟨5, _⟩ => ⟨S1x64, .f32⟩
  | .local _ .vmem, ⟨6, _⟩ => ⟨S8x1x2048, .f32⟩
  | .local _ .vmem, ⟨7, _⟩ => ⟨S8x1x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S64x2048_S64_d1 : S64x2048.ReducesTo [1] S64
  h_S_ : 0 < S_.numel
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bitsLt_bf16_f32 : FTy.bits .bf16 < FTy.bits .f32
  shapeCasts_S64_S1x64 : S64.ShapeCasts S1x64
  inb_S8x256x2048_S8x256x2048_0_0_0 : ∀ a, (![0, 0, 0] : Fin 3 → Nat) a + S8x256x2048.size a ≤ S8x256x2048.size a
  h_S8x256x2048 : 0 < S8x256x2048.numel
  shapeCasts_S8x256x2048_S2048x2048 : S8x256x2048.ShapeCasts S2048x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S2048x64_S8x256x64 : S2048x64.ShapeCasts S8x256x64
  reduces_S8x256x64_S8x256 : S8x256x64.Reduces [2] S8x256
  shapeCasts_S8x256_S8x256x1 : S8x256.ShapeCasts S8x256x1
  broadcasts_S8x256x1_S8x256x64 : S8x256x1.Broadcasts S8x256x64
  reduces_S8x256x64_S8x64 : S8x256x64.Reduces [1] S8x64
  shapeCasts_S8x64_S8x1x64 : S8x64.ShapeCasts S8x1x64
  broadcasts_S8x1x64_S8x256x64 : S8x1x64.Broadcasts S8x256x64
  broadcasts_S8x256x1_S8x256x2048 : S8x256x1.Broadcasts S8x256x2048
  reduces_S8x256x2048_S8x2048 : S8x256x2048.Reduces [1] S8x2048
  shapeCasts_S8x2048_S8x1x2048 : S8x2048.ShapeCasts S8x1x2048
  inb_S8x1x2048_S8x1x2048_0_0_0 : ∀ a, (![0, 0, 0] : Fin 3 → Nat) a + S8x1x2048.size a ≤ S8x1x2048.size a
  h_S8x1x2048 : 0 < S8x1x2048.numel
  shapeCasts_S64x1x2048_S64x2048 : S64x1x2048.ShapeCasts S64x2048
  transposes_S1024x2048_S2048x1024_1_0 : S1024x2048.Transposes [1, 0] S2048x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024_S1024_d0 : S64x1024.ReducesTo [0] S1024
  bcast_S_S1024 : S_.BroadcastsInDim S1024 (![] : Fin 0 → Fin S1024.rank)
  dot_S2048x2048_S64x2048_S2048x64_1_1_0_0_n_n_wf : DotDims.WF S2048x2048 S64x2048 S2048x64 [1] [1] [0] [0] [] []
  dot_S64x2048_S2048x1024_S64x1024_1_0_0_1_n_n_wf : DotDims.WF S64x2048 S2048x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x2048.size a ≤ S64x256x2048.size a
  hwx0_0 : ∀ i : grid0.Coords, EltTy.bits .f32 = 32 ∨ (Rect.block (s := S64x256x2048) S8x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .bf16 = 32 ∨ (Rect.block (s := S64x2048) S64x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .bf16 = 32 ∨ (Rect.block (s := S64x2048) S64x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1x2048.size a ≤ S64x1x2048.size a
  hwx0_5 : ∀ i : grid0.Coords, EltTy.bits .f32 = 32 ∨ (Rect.block (s := S64x1x2048) S8x1x2048.size (cc0_transform_5 i) (hinb0_5 i)).WholeWords (EltTy.packing .f32)

variable [Facts₀]

def dot_S2048x2048_S64x2048_S2048x64_1_1_0_0_n_n : DotDims S2048x2048 S64x2048 S2048x64 where
  lhsContracting := [1]
  rhsContracting := [1]
  lhsNonContracting := [0]
  rhsNonContracting := [0]
  lhsBatch := []
  rhsBatch := []
  wf := dot_S2048x2048_S64x2048_S2048x64_1_1_0_0_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.ofSpec (Memref.whole main_arg0) S8x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8x1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x2048 : Shape := ⟨3, ![64, 256, 2048]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S_ : Shape := ⟨0, ![]⟩
abbrev S64x1 : Shape := ⟨2, ![64, 1]⟩
abbrev S64x256x64 : Shape := ⟨3, ![64, 256, 64]⟩
abbrev S1x1x64 : Shape := ⟨3, ![1, 1, 64]⟩
abbrev S64x256x256 : Shape := ⟨3, ![64, 256, 256]⟩
abbrev S256x256 : Shape := ⟨2, ![256, 256]⟩
abbrev S64x256 : Shape := ⟨2, ![64, 256]⟩
abbrev S64x1x256 : Shape := ⟨3, ![64, 1, 256]⟩
abbrev S64x256x1 : Shape := ⟨3, ![64, 256, 1]⟩
abbrev S1x256x256 : Shape := ⟨3, ![1, 256, 256]⟩
abbrev S2048x1024 : Shape := ⟨2, ![2048, 1024]⟩
abbrev S64x1024 : Shape := ⟨2, ![64, 1024]⟩
abbrev S1x1024 : Shape := ⟨2, ![1, 1024]⟩

abbrev nBuf : Space → Nat
  | .hbm => 115
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S64x2048, .f32⟩
  | .hbm, ⟨2, _⟩ => ⟨S64, .f32⟩
  | .hbm, ⟨3, _⟩ => ⟨S64, .f32⟩
  | .hbm, ⟨4, _⟩ => ⟨S64x2048, .f32⟩
  | .hbm, ⟨5, _⟩ => ⟨S64, .f32⟩
  | .hbm, ⟨6, _⟩ => ⟨S64, .f32⟩
  | .hbm, ⟨7, _⟩ => ⟨S1024x2048, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S64x2048, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x2048, .f32⟩
  | .hbm, ⟨26, _⟩ => ⟨S64x2048, .f32⟩
  | .hbm, ⟨27, _⟩ => ⟨S64x256x64, .f32⟩
  | .hbm, ⟨28, _⟩ => ⟨S1x1x64, .f32⟩
  | .hbm, ⟨29, _⟩ => ⟨S64x256x64, .f32⟩
  | .hbm, ⟨30, _⟩ => ⟨S64x256x64, .f32⟩
  | .hbm, ⟨31, _⟩ => ⟨S_, .f32⟩
  | .hbm, ⟨32, _⟩ => ⟨S64x256x64, .f32⟩
  | .hbm, ⟨33, _⟩ => ⟨S64x256x64, .f32⟩
  | .hbm, ⟨34, _⟩ => ⟨S64x256x64, .f32⟩
  | .hbm, ⟨35, _⟩ => ⟨S1x1x64, .f32⟩
  | .hbm, ⟨36, _⟩ => ⟨S64x256x64, .f32⟩
  | .hbm, ⟨37, _⟩ => ⟨S64x256x64, .f32⟩
  | .hbm, ⟨38, _⟩ => ⟨S_, .f32⟩
  | .hbm, ⟨39, _⟩ => ⟨S64x256x64, .f32⟩
  | .hbm, ⟨40, _⟩ => ⟨S64x256x64, .f32⟩
  | .hbm, ⟨41, _⟩ => ⟨S64x256x256, .f32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S64x256x256, .i1⟩
  | .hbm, ⟨46, _⟩ => ⟨S_, .f32⟩
  | .hbm, ⟨47, _⟩ => ⟨S64x256x256, .f32⟩
  | .hbm, ⟨48, _⟩ => ⟨S64x256x256, .f32⟩
  | .hbm, ⟨49, _⟩ => ⟨S_, .f32⟩
  | .hbm, ⟨50, _⟩ => ⟨S64x256, .f32⟩
  | .hbm, ⟨51, _⟩ => ⟨S_, .f32⟩
  | .hbm, ⟨52, _⟩ => ⟨S64x256, .f32⟩
  | .hbm, ⟨53, _⟩ => ⟨S64x256, .f32⟩
  | .hbm, ⟨54, _⟩ => ⟨S64x256, .f32⟩
  | .hbm, ⟨55, _⟩ => ⟨S64x1x256, .f32⟩
  | .hbm, ⟨56, _⟩ => ⟨S64x256x256, .f32⟩
  | .hbm, ⟨57, _⟩ => ⟨S64x256x256, .f32⟩
  | .hbm, ⟨58, _⟩ => ⟨S64x256x1, .f32⟩
  | .hbm, ⟨59, _⟩ => ⟨S64x256x256, .f32⟩
  | .hbm, ⟨60, _⟩ => ⟨S64x256x256, .f32⟩
  | .hbm, ⟨61, _⟩ => ⟨S256x256, .i32⟩
  | .hbm, ⟨62, _⟩ => ⟨S256x256, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S1x256x256, .f32⟩
  | .hbm, ⟨72, _⟩ => ⟨S64x256x256, .f32⟩
  | .hbm, ⟨73, _⟩ => ⟨S64x256x256, .f32⟩
  | .hbm, ⟨74, _⟩ => ⟨S64x256x2048, .f32⟩
  | .hbm, ⟨75, _⟩ => ⟨S_, .f32⟩
  | .hbm, ⟨76, _⟩ => ⟨S64x2048, .f32⟩
  | .hbm, ⟨77, _⟩ => ⟨S_, .f32⟩
  | .hbm, ⟨78, _⟩ => ⟨S64x2048, .f32⟩
  | .hbm, ⟨79, _⟩ => ⟨S64x2048, .f32⟩
  | .hbm, ⟨80, _⟩ => ⟨S2048x1024, .f32⟩
  | .hbm, ⟨81, _⟩ => ⟨S64x1024, .f32⟩
  | .hbm, ⟨82, _⟩ => ⟨S1x1024, .f32⟩
  | .hbm, ⟨83, _⟩ => ⟨S64x1024, .f32⟩
  | .hbm, ⟨84, _⟩ => ⟨S64x1024, .f32⟩
  | .hbm, ⟨85, _⟩ => ⟨S_, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1x1024, .f32⟩
  | .hbm, ⟨91, _⟩ => ⟨S64x1024, .f32⟩
  | .hbm, ⟨92, _⟩ => ⟨S64x1024, .f32⟩
  | .hbm, ⟨93, _⟩ => ⟨S64x1024, .f32⟩
  | .hbm, ⟨94, _⟩ => ⟨S_, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1x1024, .f32⟩
  | .hbm, ⟨100, _⟩ => ⟨S64x1024, .f32⟩
  | .hbm, ⟨101, _⟩ => ⟨S64x1024, .f32⟩
  | .hbm, ⟨102, _⟩ => ⟨S1x1024, .f32⟩
  | .hbm, ⟨103, _⟩ => ⟨S64x1024, .f32⟩
  | .hbm, ⟨104, _⟩ => ⟨S64x1024, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S1024, .f32⟩
  | .hbm, ⟨109, _⟩ => ⟨S1x1024, .f32⟩
  | .hbm, ⟨110, _⟩ => ⟨S64x1024, .f32⟩
  | .hbm, ⟨111, _⟩ => ⟨S64x1024, .f32⟩
  | .hbm, ⟨112, _⟩ => ⟨S1x1024, .f32⟩
  | .hbm, ⟨113, _⟩ => ⟨S64x1024, .f32⟩
  | .hbm, ⟨114, _⟩ => ⟨S64x1024, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call3_cst : Ref sig .tc := ⟨.hbm, 38, rfl⟩
abbrev main_call3_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_cst_0 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_9 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  reducesTo_S64x2048_S64_d1 : S64x2048.ReducesTo [1] S64
  h_S_ : 0 < S_.numel
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S64_S1x1x64_2 : S64.BroadcastsInDim S1x1x64 (![2] : Fin 1 → Fin S1x1x64.rank)
  bcast_S1x1x64_S64x256x64_0_1_2 : S1x1x64.BroadcastsInDim S64x256x64 (![0, 1, 2] : Fin 3 → Fin S64x256x64.rank)
  bcast_S_S64x256x64 : S_.BroadcastsInDim S64x256x64 (![] : Fin 0 → Fin S64x256x64.rank)
  bcast_S256x256_S64x256x256_1_2 : S256x256.BroadcastsInDim S64x256x256 (![1, 2] : Fin 2 → Fin S64x256x256.rank)
  bcast_S_S64x256x256 : S_.BroadcastsInDim S64x256x256 (![] : Fin 0 → Fin S64x256x256.rank)
  reducesTo_S64x256x256_S64x256_d1 : S64x256x256.ReducesTo [1] S64x256
  bcast_S_S64x256 : S_.BroadcastsInDim S64x256 (![] : Fin 0 → Fin S64x256.rank)
  bcast_S64x256_S64x1x256_0_2 : S64x256.BroadcastsInDim S64x1x256 (![0, 2] : Fin 2 → Fin S64x1x256.rank)
  bcast_S64x1x256_S64x256x256_0_1_2 : S64x1x256.BroadcastsInDim S64x256x256 (![0, 1, 2] : Fin 3 → Fin S64x256x256.rank)
  bcast_S64x256_S64x256x1_0_1 : S64x256.BroadcastsInDim S64x256x1 (![0, 1] : Fin 2 → Fin S64x256x1.rank)
  bcast_S64x256x1_S64x256x256_0_1_2 : S64x256x1.BroadcastsInDim S64x256x256 (![0, 1, 2] : Fin 3 → Fin S64x256x256.rank)
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  bcast_S1x256x256_S64x256x256_0_1_2 : S1x256x256.BroadcastsInDim S64x256x256 (![0, 1, 2] : Fin 3 → Fin S64x256x256.rank)
  reducesTo_S64x256x2048_S64x2048_d1 : S64x256x2048.ReducesTo [1] S64x2048
  bcast_S_S64x2048 : S_.BroadcastsInDim S64x2048 (![] : Fin 0 → Fin S64x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024_S1024_d0 : S64x1024.ReducesTo [0] S1024
  bcast_S_S1024 : S_.BroadcastsInDim S1024 (![] : Fin 0 → Fin S1024.rank)
  dot_S64x256x2048_S64x2048_S64x256x64_2_1_01_0_n_n_wf : DotDims.WF S64x256x2048 S64x2048 S64x256x64 [2] [1] [0, 1] [0] [] []
  dot_S64x256x64_S64x256x64_S64x256x256_2_2_1_1_0_0_wf : DotDims.WF S64x256x64 S64x256x64 S64x256x256 [2] [2] [1] [1] [0] [0]
  dot_S64x256x256_S64x256x2048_S64x256x2048_2_1_1_2_0_0_wf : DotDims.WF S64x256x256 S64x256x2048 S64x256x2048 [2] [1] [1] [2] [0] [0]
  dot_S64x2048_S2048x1024_S64x1024_1_0_0_1_n_n_wf : DotDims.WF S64x2048 S2048x1024 S64x1024 [1] [0] [0] [1] [] []

variable [Facts₀]

def dot_S64x256x2048_S64x2048_S64x256x64_2_1_01_0_n_n : DotDims S64x256x2048 S64x2048 S64x256x64 where
  lhsContracting := [2]
  rhsContracting := [1]
  lhsNonContracting := [0, 1]
  rhsNonContracting := [0]
  lhsBatch := []
  rhsBatch := []
  wf := dot_S64x256x2048_S64x2048_S64x256x64_2_1_01_0_n_n_wf
def dot_S64x256x64_S64x256x64_S64x256x256_2_2_1_1_0_0 : DotDims S64x256x64 S64x256x64 S64x256x256 where
  lhsContracting := [2]
  rhsContracting := [2]
  lhsNonContracting := [1]
  rhsNonContracting := [1]
  lhsBatch := [0]
  rhsBatch := [0]
  wf := dot_S64x256x64_S64x256x64_S64x256x256_2_2_1_1_0_0_wf
def dot_S64x256x256_S64x256x2048_S64x256x2048_2_1_1_2_0_0 : DotDims S64x256x256 S64x256x2048 S64x256x2048 where
  lhsContracting := [2]
  rhsContracting := [1]
  lhsNonContracting := [1]
  rhsNonContracting := [2]
  lhsBatch := [0]
  rhsBatch := [0]
  wf := dot_S64x256x256_S64x256x2048_S64x256x2048_2_1_1_2_0_0_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

class Facts : Prop extends Facts₀ where

variable [Facts]
-- ==== Proof.Spec.lean ====
/-
  The correlation features of one batch, written twice over the extended reals.

  For one batch let V be its 256 x 2048 slab, W1 and W2 the two 64 x 2048 projection matrices and b1, b2 their biases.
  right n k = max (sum_v V n v * W1 k v + b1 k) 0 and left n k = max (sum_v V n v * W2 k v + b2 k) 0 are the two
  rectified projections, and d n = (sum_k left n k * right n k + eps)^(-1/2) normalises by the diagonal of
  left * right^T.

  The column-sum form: feat q = (sum_m (257 - d m * sum_k right m k * (sum_n d n * left n k)) * V m q) * 2^-8.
  The matrix form:     feat q = (sum_n sum_m ((1 + [n = m]) - (d m * sum_k left n k * right m k) * d n) * V m q) / 256.

  Summing the matrix form's coefficient over n gives 256 + 1 - d m * sum_k right m k * sum_n d n * left n k, which is
  the column-sum form's coefficient; dividing by 256 is multiplying by 2^-8. Both steps move a factor across a sum, so
  the two forms agree where every entry is a real number (Proof/Lift.lean); nothing here proves anything.
-/
import Idealize.ShloMosaic.PureOps.Ideal

noncomputable section

open scoped BigOperators

namespace Cert.Corr

open Idealize.ShloMosaic

/-- The stabiliser added under the inverse square root, as the word both programs spell. -/
def eps : EReal := Ideal.ofBits .f32 0x358637BD#32
/-- 257, the number of rows plus one. -/
def c257 : EReal := Ideal.ofBits .f32 0x43808000#32
/-- 2^-8, the reciprocal of the number of rows. -/
def cInv256 : EReal := Ideal.ofBits .f32 0x3B800000#32
/-- 256, the number of rows. -/
def c256 : EReal := Ideal.ofBits .f32 0x43800000#32
/-- 1. -/
def c1 : EReal := Ideal.ofBits .f32 0x3F800000#32

/-- A weight-normalised matrix: row k of v scaled by g k over the Euclidean norm of that row. -/
def wnorm (v : Fin 64 → Fin 2048 → EReal) (g : Fin 64 → EReal) (k : Fin 64) (x : Fin 2048) : EReal :=
  v k x * Ideal.div (g k) (Ideal.sqrt (∑ y, v k y * v k y))

section OneBatch

variable (V : Fin 256 → Fin 2048 → EReal) (W1 W2 : Fin 64 → Fin 2048 → EReal) (b1 b2 : Fin 64 → EReal)

/-- A rectified projection of row n onto row k of W. -/
def proj (W : Fin 64 → Fin 2048 → EReal) (b : Fin 64 → EReal) (n : Fin 256) (k : Fin 64) : EReal :=
  max ((∑ v, V n v * W k v) + b k) 0

/-- The inverse square root of the diagonal entry n of left * right^T, stabilised. -/
def dvec (n : Fin 256) : EReal :=
  Ideal.rsqrt ((∑ k, proj V W2 b2 n k * proj V W1 b1 n k) + eps)

/-- The column-sum form. -/
def featK (q : Fin 2048) : EReal :=
  (∑ m, (c257 - dvec V W1 W2 b1 b2 m * ∑ k, proj V W1 b1 m k * ∑ n, dvec V W1 W2 b1 b2 n * proj V W2 b2 n k) * V m q)
    * cInv256

/-- The matrix form. -/
def featR (q : Fin 2048) : EReal :=
  Ideal.div (∑ n, ∑ m, ((c1 + (if n = m then (1 : EReal) else 0))
      - (dvec V W1 W2 b1 b2 m * ∑ k, proj V W2 b2 n k * proj V W1 b1 m k) * dvec V W1 W2 b1 b2 n) * V m q) c256

end OneBatch

end Cert.Corr

end
-- ==== Proof.Consts.lean ====
/-
  The five float words of the specification as the numbers they denote: 257, 2^-8, 256 and 1 exactly, and the
  stabiliser as a positive real (its exact value is never needed: only that adding it to a non-negative number
  gives a positive one).
-/
import proofs.«107245_j37211596653081_1_alg».proof.Proof.Spec

noncomputable section

namespace Cert.Corr

open Idealize.ShloMosaic

theorem c257_eq : c257 = ((257 : ℝ) : EReal) := by
  unfold c257; simp [Ideal.ofBits, Ideal.ieee, -EReal.coe_mul]; norm_num

theorem cInv256_eq : cInv256 = ((1 / 256 : ℝ) : EReal) := by
  unfold cInv256; simp [Ideal.ofBits, Ideal.ieee, -EReal.coe_mul]; norm_num

theorem c256_eq : c256 = ((256 : ℝ) : EReal) := by
  unfold c256; simp [Ideal.ofBits, Ideal.ieee, -EReal.coe_mul]; norm_num

theorem c1_eq : c1 = ((1 : ℝ) : EReal) := by
  unfold c1; simp [Ideal.ofBits, Ideal.ieee, -EReal.coe_mul]; norm_num

/-- The stabiliser is a positive real number. -/
theorem eps_pos : ∃ e : ℝ, 0 < e ∧ eps = (e : EReal) := by
  -- the word has sign 0, exponent field 107 and fraction 407485: it denotes (2^23 + 407485) * 2^(107 - 127 - 23)
  refine ⟨(8796093 : ℝ) * (2 : ℝ) ^ (-43 : ℤ), by positivity, ?_⟩
  unfold eps; simp [Ideal.ofBits, Ideal.ieee, -EReal.coe_mul]

/-- The all-zero word is zero. -/
theorem ofBits_zero : Ideal.ofBits .f32 0x00000000#32 = 0 := by
  simp [Ideal.ofBits, Ideal.ieee]

end Cert.Corr

end
-- ==== Proof.RealAlg.lean ====
/-
  The identity behind the column-sum form, over the real numbers and any finite row and rank index types.

  With u n m = sum_k l n k * r m k, the coefficient (1 + [n = m]) - (d m * u n m) * d n summed over n is
  card N + 1 - d m * sum_k r m k * sum_n d n * l n k: the ones count the rows, the indicator contributes its single
  hit, and d m and r m k move out of the sum over n.
-/
import Idealize.ShloMosaic.PureOps.Ideal

noncomputable section

open scoped BigOperators

namespace Cert.Corr

theorem colsum_identity {N K : Type} [Fintype N] [DecidableEq N] [Fintype K]
    (l r : N → K → ℝ) (d : N → ℝ) (x : N → ℝ) :
    ∑ n, ∑ m, (((1 : ℝ) + (if n = m then (1 : ℝ) else 0)) - (d m * ∑ k, l n k * r m k) * d n) * x m
      = ∑ m, (((Fintype.card N : ℝ) + 1) - d m * ∑ k, r m k * ∑ n, d n * l n k) * x m := by
  rw [Finset.sum_comm]
  refine Finset.sum_congr rfl fun m _ => ?_
  rw [← Finset.sum_mul]
  congr 1
  -- the sum over n of d m * u n m * d n, with d m and r m k moved out and the sums over n and k swapped
  have hterm : ∀ n, (d m * ∑ k, l n k * r m k) * d n = d m * ∑ k, r m k * (d n * l n k) := by
    intro n
    rw [mul_assoc, Finset.sum_mul]
    congr 1
    refine Finset.sum_congr rfl fun k _ => ?_
    ring
  have hsum : ∑ n, (d m * ∑ k, l n k * r m k) * d n = d m * ∑ k, r m k * ∑ n, d n * l n k := by
    simp only [hterm]
    rw [← Finset.mul_sum, Finset.sum_comm]
    congr 1
    refine Finset.sum_congr rfl fun k _ => ?_
    rw [Finset.mul_sum]
  -- the ones count the rows and the indicator contributes its single hit
  have hind : ∑ n, (if n = m then (1 : ℝ) else 0) = 1 := by
    rw [Finset.sum_ite_eq']
    simp
  rw [Finset.sum_sub_distrib, Finset.sum_add_distrib, Finset.sum_const, Finset.card_univ, nsmul_eq_mul, mul_one,
    hind, hsum]

end Cert.Corr

end
-- ==== Proof.Lift.lean ====
/-
  The two forms of the features agree wherever every entry of the slab, of both projection matrices and of both
  biases is a real number.

  Then both projections are non-negative reals, the stabilised diagonal is a positive real, its inverse square root
  a positive real, and every sum below is a finite sum of reals; the identity of Proof/RealAlg.lean applies with
  card (Fin 256) = 256, and the quotient by 256 is the product with 2^-8.
-/
import proofs.«107245_j37211596653081_1_alg».proof.Proof.Spec
import proofs.«107245_j37211596653081_1_alg».proof.Proof.Consts
import proofs.«107245_j37211596653081_1_alg».proof.Proof.RealAlg

noncomputable section

open scoped BigOperators

namespace Cert.Corr

open Idealize.ShloMosaic

/-- A finite sum of real numbers, read in the extended reals, is the sum of the readings. -/
theorem coe_finsum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, read in the extended reals. -/
theorem coe_max_real (a b : ℝ) : max (a : EReal) (b : EReal) = ((max a b : ℝ) : EReal) :=
  (EReal.coe_strictMono.monotone.map_max).symm

/-- The rectified projection over the reals. -/
def projR (Vr : Fin 256 → Fin 2048 → ℝ) (Wr : Fin 64 → Fin 2048 → ℝ) (br : Fin 64 → ℝ)
    (n : Fin 256) (k : Fin 64) : ℝ :=
  max ((∑ v, Vr n v * Wr k v) + br k) 0

theorem projR_nonneg (Vr : Fin 256 → Fin 2048 → ℝ) (Wr : Fin 64 → Fin 2048 → ℝ) (br : Fin 64 → ℝ)
    (n : Fin 256) (k : Fin 64) : 0 ≤ projR Vr Wr br n k :=
  le_max_right _ _

/-- The projection of real data is the real projection. -/
theorem proj_coe (Vr : Fin 256 → Fin 2048 → ℝ) (Wr : Fin 64 → Fin 2048 → ℝ) (br : Fin 64 → ℝ)
    (n : Fin 256) (k : Fin 64) :
    proj (fun n v => ((Vr n v : ℝ) : EReal)) (fun k v => ((Wr k v : ℝ) : EReal)) (fun k => ((br k : ℝ) : EReal)) n k
      = ((projR Vr Wr br n k : ℝ) : EReal) := by
  unfold proj projR
  simp only [← EReal.coe_mul]
  rw [coe_finsum, ← EReal.coe_add, ← EReal.coe_zero, coe_max_real]

/-- The inverse square root of the stabilised diagonal over the reals, for a stabiliser e. -/
def dvecR (e : ℝ) (Vr : Fin 256 → Fin 2048 → ℝ) (W1r W2r : Fin 64 → Fin 2048 → ℝ) (b1r b2r : Fin 64 → ℝ)
    (n : Fin 256) : ℝ :=
  (Real.sqrt ((∑ k, projR Vr W2r b2r n k * projR Vr W1r b1r n k) + e))⁻¹

/-- The stabilised diagonal is positive, so its inverse square root is the real one. -/
theorem dvec_coe (e : ℝ) (he : 0 < e) (heps : eps = (e : EReal))
    (Vr : Fin 256 → Fin 2048 → ℝ) (W1r W2r : Fin 64 → Fin 2048 → ℝ) (b1r b2r : Fin 64 → ℝ) (n : Fin 256) :
    dvec (fun n v => ((Vr n v : ℝ) : EReal)) (fun k v => ((W1r k v : ℝ) : EReal))
        (fun k v => ((W2r k v : ℝ) : EReal)) (fun k => ((b1r k : ℝ) : EReal)) (fun k => ((b2r k : ℝ) : EReal)) n
      = ((dvecR e Vr W1r W2r b1r b2r n : ℝ) : EReal) := by
  unfold dvec dvecR
  simp only [proj_coe, heps, ← EReal.coe_mul]
  rw [coe_finsum, ← EReal.coe_add]
  have hpos : 0 < (∑ k, projR Vr W2r b2r n k * projR Vr W1r b1r n k) + e := by
    have : 0 ≤ ∑ k, projR Vr W2r b2r n k * projR Vr W1r b1r n k :=
      Finset.sum_nonneg (fun k _ => mul_nonneg (projR_nonneg _ _ _ _ _) (projR_nonneg _ _ _ _ _))
    linarith
  rw [Ideal.rsqrt_coe, if_neg (not_lt.mpr hpos.le), if_neg hpos.ne']

theorem featK_eq_featR (V : Fin 256 → Fin 2048 → EReal) (W1 W2 : Fin 64 → Fin 2048 → EReal) (b1 b2 : Fin 64 → EReal)
    (hV : ∀ n v, ∃ r : ℝ, V n v = (r : EReal)) (hW1 : ∀ k v, ∃ r : ℝ, W1 k v = (r : EReal))
    (hW2 : ∀ k v, ∃ r : ℝ, W2 k v = (r : EReal)) (hb1 : ∀ k, ∃ r : ℝ, b1 k = (r : EReal))
    (hb2 : ∀ k, ∃ r : ℝ, b2 k = (r : EReal)) (q : Fin 2048) :
    featK V W1 W2 b1 b2 q = featR V W1 W2 b1 b2 q := by
  choose Vr hVr using hV
  choose W1r hW1r using hW1
  choose W2r hW2r using hW2
  choose b1r hb1r using hb1
  choose b2r hb2r using hb2
  obtain rfl : V = fun n v => ((Vr n v : ℝ) : EReal) := funext fun n => funext fun v => hVr n v
  obtain rfl : W1 = fun k v => ((W1r k v : ℝ) : EReal) := funext fun k => funext fun v => hW1r k v
  obtain rfl : W2 = fun k v => ((W2r k v : ℝ) : EReal) := funext fun k => funext fun v => hW2r k v
  obtain rfl : b1 = fun k => ((b1r k : ℝ) : EReal) := funext fun k => hb1r k
  obtain rfl : b2 = fun k => ((b2r k : ℝ) : EReal) := funext fun k => hb2r k
  obtain ⟨e, he, heps⟩ := eps_pos
  have hind : ∀ n m : Fin 256,
      (if n = m then (1 : EReal) else 0) = (((if n = m then (1 : ℝ) else 0) : ℝ) : EReal) := by
    intro n m; split_ifs <;> simp
  unfold featK featR
  rw [c256_eq, Ideal.div_coe (by norm_num : (256 : ℝ) ≠ 0)]
  simp only [dvec_coe e he heps, proj_coe, c257_eq, cInv256_eq, c1_eq, hind]
  simp only [← EReal.coe_mul, coe_finsum, ← EReal.coe_sub, ← EReal.coe_add]
  rw [EReal.coe_eq_coe_iff]
  have h := colsum_identity (N := Fin 256) (K := Fin 64) (fun n k => projR Vr W2r b2r n k)
    (fun m k => projR Vr W1r b1r m k) (fun n => dvecR e Vr W1r W2r b1r b2r n) (fun m => Vr m q)
  simp only [Fintype.card_fin] at h
  rw [h]
  norm_num

end Cert.Corr

end
-- ==== Proof.WeightNorm.lean ====
/-
  A weight-normalised matrix of real entries has real entries.

  If row k of v is not all zero its norm is a positive real and g k over it is real. If row k is all zero the norm is
  zero and g k over zero is an infinity (or the junk value), but every entry of the row is zero and zero times any
  extended real is zero.
-/
import proofs.«107245_j37211596653081_1_alg».proof.Proof.Spec

noncomputable section

open scoped BigOperators

namespace Cert.Corr

open Idealize.ShloMosaic

/-- A finite sum of coercions of reals is the coercion of the real sum. -/
private theorem coe_finset_sum {ι : Type} (s : Finset ι) (f : ι → ℝ) :
    (∑ y ∈ s, ((f y : ℝ) : EReal)) = ((∑ y ∈ s, f y : ℝ) : EReal) := by
  classical
  induction s using Finset.induction_on with
  | empty => simp
  | insert a s ha ih => rw [Finset.sum_insert ha, Finset.sum_insert ha, ih, EReal.coe_add]

theorem wnorm_real (v : Fin 64 → Fin 2048 → EReal) (g : Fin 64 → EReal)
    (hv : ∀ k x, ∃ r : ℝ, v k x = (r : EReal)) (hg : ∀ k, ∃ r : ℝ, g k = (r : EReal)) (k : Fin 64) (x : Fin 2048) :
    ∃ r : ℝ, wnorm v g k x = (r : EReal) := by
  choose vr hvr using hv
  obtain ⟨gr, hgr⟩ := hg k
  -- the sum of squares of row k is the coercion of a non-negative real S
  have hS0 : 0 ≤ ∑ y, vr k y * vr k y := Finset.sum_nonneg (fun y _ => mul_self_nonneg _)
  have hsum : (∑ y, v k y * v k y) = ((∑ y, vr k y * vr k y : ℝ) : EReal) := by
    rw [← coe_finset_sum]
    refine Finset.sum_congr rfl (fun y _ => ?_)
    rw [hvr, EReal.coe_mul]
  unfold wnorm
  rw [hsum, Ideal.sqrt_coe, if_neg (not_lt.mpr hS0), hvr k x, hgr]
  by_cases h0 : Real.sqrt (∑ y, vr k y * vr k y) = 0
  · -- the norm is zero: every entry of the row is zero, and zero times anything is zero
    have hS' : ∑ y, vr k y * vr k y = 0 := (Real.sqrt_eq_zero hS0).mp h0
    have hall := (Finset.sum_eq_zero_iff_of_nonneg (fun y _ => mul_self_nonneg (vr k y))).mp hS'
    have hx : vr k x = 0 := mul_self_eq_zero.mp (hall x (Finset.mem_univ x))
    refine ⟨0, ?_⟩
    rw [hx, EReal.coe_zero, zero_mul]
  · -- the norm is a non-zero real: the quotient and the product are real
    refine ⟨vr k x * (gr * (1 / Real.sqrt (∑ y, vr k y * vr k y))), ?_⟩
    rw [Ideal.div_coe h0, ← EReal.coe_mul, ← EReal.coe_mul]

end Cert.Corr

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotT.lean ====
/-
  A matrix product of an `M × K` by an `N × K` operand, both contracted on their LAST axis and with no batch axis,
  into the zero accumulator, read at entry (a, b) at the ideal values: the sum over the contracted coordinate c of the
  left operand's entry (a, c) times the right operand's entry (b, c) — a product with the right operand transposed.
  For any dimension-numbers record whose axis lists are the stated ones (a printed record satisfies each by `rfl`).
-/
import proofs.«107245_j37211596653081_1_alg».proof.Proof.LibDot

noncomputable section

open scoped BigOperators

namespace Cert.LibDot

open Idealize.ShloMosaic Idealize.ShloMosaic.ValueIdx

/-- Rows by rows: an `M × K` by an `N × K` operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDot

end
-- ==== Proof.KProj.lean ====
/-
  One rectified projection as a grid point computes it: the 8 x 256 x 2048 slab block is read as 2048 rows of 2048,
  multiplied by the transposed 64 x 2048 matrix, a bias row is added to every row, negatives are replaced by zero, and
  the 2048 x 64 result is read back as 8 x 256 x 64. At (p, n, k) it is the rectified projection of row n of local
  batch p onto row k of the matrix: flat row 256 p + n of the block is row n of batch p.
-/
import proofs.«107245_j37211596653081_1_alg».proof.Proof.Gen.KernelIdeal.Skeleton
import proofs.«107245_j37211596653081_1_alg».proof.Proof.Spec
import proofs.«107245_j37211596653081_1_alg».proof.Proof.Consts
import proofs.«107245_j37211596653081_1_alg».proof.Proof.LibDot
import proofs.«107245_j37211596653081_1_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Local batch p of a slab block, as a 256 x 2048 table. -/
abbrev slab (x0 : Vec Ideal S8x256x2048 .f32) (p : Fin 8) : Fin 256 → Fin 2048 → EReal := fun n v => x0 (ix3 p n v)
/-- A projection matrix block as a 64 x 2048 table. -/
abbrev mat (w : Vec Ideal S64x2048 .bf16) : Fin 64 → Fin 2048 → EReal := fun k v => w (ix2 k v)
/-- A bias row block as 64 numbers. -/
abbrev row (b : Vec Ideal S1x64 .f32) : Fin 64 → EReal := fun k => b (ix2 (0 : Fin 1) k)

/-- One rectified projection of the slab block, as the body spells it. -/
def projFlat (x0 : Vec Ideal S8x256x2048 .f32) (w : Vec Ideal S64x2048 .bf16) (b : Vec Ideal S1x64 .f32) : FVec Ideal S8x256x64 .f32 :=
  have v1 : FVec Ideal S2048x2048 .f32 := shapeCast S2048x2048 x0 Facts₀.shapeCasts_S8x256x2048_S2048x2048
  have v2 : FVec Ideal S2048x2048 .bf16 := truncf .bf16 v1 Facts₀.bitsLt_bf16_f32
  have v4 : FVec Ideal S64x2048 .bf16 := shapeCast S64x2048 w Facts₀.shapeCasts_S64x2048_S64x2048
  have v8 : FVec Ideal S1x64 .f32 := shapeCast S1x64 b Facts₀.shapeCasts_S1x64_S1x64
  have cst : FVec Ideal S2048x64 .f32 := constant S2048x64 .f32 0x00000000#32
  have v11 : FVec Ideal S2048x64 .f32 := matmul dot_S2048x2048_S64x2048_S2048x64_1_1_0_0_n_n none v2 v4 cst
  have v12 : FVec Ideal S2048x64 .f32 := broadcastTo S2048x64 v8 Facts₀.broadcasts_S1x64_S2048x64
  have v13 : FVec Ideal S2048x64 .f32 := addf v11 v12
  have cst_10 : Ideal .f32 := Scalar.ofBits .f32 0x00000000#32
  have v14 : FVec Ideal S2048x64 .f32 := broadcast S2048x64 cst_10
  have v15 : FVec Ideal S2048x64 .f32 := maximumf v13 v14
  have v21 : FVec Ideal S8x256x64 .f32 := shapeCast S8x256x64 v15 Facts₀.shapeCasts_S2048x64_S8x256x64
  v21

/-- A 2048 x 64 table read as 8 x 256 x 64: entry (p, n, k) is entry (256 p + n, k). -/
theorem shapeCast_rows_apply {α : Type} (v : S2048x64.Idx → α) (h : S2048x64.ShapeCasts S8x256x64)
    (p : Fin 8) (n : Fin 256) (k : Fin 64) (hr : 256 * p.val + n.val < 2048) :
    shapeCast S8x256x64 v h (ix3 p n k) = v (ix2 (⟨256 * p.val + n.val, hr⟩ : Fin 2048) k) :=
  shapeCast_apply v h _ _ (by
    rw [Shape.rowMajor_val_three, Shape.rowMajor_val_two]
    show (256 * p.val + n.val) * 64 + k.val = (p.val * 256 + n.val) * 64 + k.val
    omega)

/-- An 8 x 256 x 2048 block read as 2048 x 2048: entry (256 p + n, c) is entry (p, n, c). -/
theorem shapeCast_flat_apply {α : Type} (x : S8x256x2048.Idx → α) (h : S8x256x2048.ShapeCasts S2048x2048)
    (p : Fin 8) (n : Fin 256) (c : Fin 2048) (hr : 256 * p.val + n.val < 2048) :
    shapeCast S2048x2048 x h (ix2 (⟨256 * p.val + n.val, hr⟩ : Fin 2048) c) = x (ix3 p n c) :=
  shapeCast_apply x h _ _ (by
    rw [Shape.rowMajor_val_three, Shape.rowMajor_val_two]
    show (p.val * 256 + n.val) * 2048 + c.val = (256 * p.val + n.val) * 2048 + c.val
    omega)

/-- The projection at (p, n, k). -/
theorem projFlat_apply (x0 : Vec Ideal S8x256x2048 .f32) (w : Vec Ideal S64x2048 .bf16) (b : Vec Ideal S1x64 .f32)
    (p : Fin 8) (n : Fin 256) (k : Fin 64) :
    projFlat x0 w b (ix3 p n k) = Corr.proj (slab x0 p) (mat w) (row b) n k := by
  have hr : 256 * p.val + n.val < 2048 := by have := p.isLt; have := n.isLt; omega
  unfold projFlat
  refine (shapeCast_rows_apply _ _ p n k hr).trans ?_
  rw [maximumf_apply, addf_apply, broadcast_apply]
  rw [broadcastTo_1b_ab_apply, shapeCast_self, shapeCast_self]
  have hm := Cert.LibDot.matmul_11_zero_apply (M := 2048) (K := 2048) (N := 64) (φ₁ := .bf16) (φ₂ := .bf16)
    dot_S2048x2048_S64x2048_S2048x64_1_1_0_0_n_n rfl rfl rfl rfl rfl rfl none
    (truncf .bf16 (shapeCast S2048x2048 x0 Facts₀.shapeCasts_S8x256x2048_S2048x2048) Facts₀.bitsLt_bf16_f32)
    w (⟨256 * p.val + n.val, hr⟩ : Fin 2048) k
  refine (congrArg₂ max (congrArg (· + _) hm) Cert.Corr.ofBits_zero).trans ?_
  unfold Corr.proj
  refine congrArg (fun s => max (s + b (ix2 (0 : Fin 1) k)) 0) (Finset.sum_congr rfl fun c _ => ?_)
  rw [truncf_apply, shapeCast_flat_apply x0 _ p n c hr]

end Cert.KernelIdeal.Pay

end
-- ==== Proof.KPay2.lean ====
/-
  The coefficient column one grid point computes before the weighted column sum: at (p, n, 0) it is d n times the sum
  over k of right n k times (the sum over n' of d n' * left n' k), for local batch p of the point's slab block, the two
  projection matrices and the two bias rows. Both projections are matrix products with the matrix transposed, plus a
  bias row, rectified; d is the inverse square root of the stabilised row-wise product of the two.
-/
import proofs.«107245_j37211596653081_1_alg».proof.Proof.Gen.KernelIdeal.Skeleton
import proofs.«107245_j37211596653081_1_alg».proof.Proof.Spec
import proofs.«107245_j37211596653081_1_alg».proof.Proof.Consts
import proofs.«107245_j37211596653081_1_alg».proof.Proof.KProj
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A lane sum along the last axis of an 8 x 256 x 64 block, at (p, n): the sum over k of the block at (p, n, k). -/
private theorem sumLast_apply (X : FVec Ideal S8x256x64 .f32) (h : S8x256x64.Reduces [2] S8x256) (hφ : FKind.Formats .f32)
    (hacc : (0x00000000#32 : BitVec 32) = 0x00000000#32) (p : Fin 8) (n : Fin 256) :
    multiReduction .add [2] S8x256 X 0x00000000#32 h hφ hacc (ix2 p n) = ∑ k : Fin 64, X (ix3 p n k) := by
  refine (Ideal.multiReduction_add_single X 0x00000000#32 h hφ hacc (ix2 p n)).trans ?_
  refine Finset.sum_congr rfl fun k _ => congrArg X ?_
  funext c
  match c with
  | ⟨0, _⟩ => rfl
  | ⟨1, _⟩ => rfl
  | ⟨2, _⟩ => rfl

/-- A sum along the middle axis of an 8 x 256 x 64 block, at (p, k): the sum over n of the block at (p, n, k). -/
private theorem sumMid_apply (X : FVec Ideal S8x256x64 .f32) (h : S8x256x64.Reduces [1] S8x64) (hφ : FKind.Formats .f32)
    (hacc : (0x00000000#32 : BitVec 32) = 0x00000000#32) (p : Fin 8) (k : Fin 64) :
    multiReduction .add [1] S8x64 X 0x00000000#32 h hφ hacc (ix2 p k) = ∑ n : Fin 256, X (ix3 p n k) := by
  refine (Ideal.multiReduction_add_single X 0x00000000#32 h hφ hacc (ix2 p k)).trans ?_
  refine Finset.sum_congr rfl fun n _ => congrArg X ?_
  funext c
  match c with
  | ⟨0, _⟩ => rfl
  | ⟨1, _⟩ => rfl
  | ⟨2, _⟩ => rfl

/-- An 8 x 256 table read as 8 x 256 x 1: at (p, n, u) it is the table at (p, n). -/
private theorem colCast_apply {α : Type} (x : S8x256.Idx → α) (h : S8x256.ShapeCasts S8x256x1) (p : Fin 8) (n : Fin 256) (u : Fin 1) :
    shapeCast S8x256x1 x h (ix3 p n u) = x (ix2 p n) :=
  shapeCast_apply x h _ _ (by
    have hu : u.val = 0 := by omega
    rw [Shape.rowMajor_val_three, Shape.rowMajor_val_two]
    show p.val * 256 + n.val = (p.val * 256 + n.val) * 1 + u.val
    rw [hu, Nat.mul_one, Nat.add_zero])

/-- An 8 x 64 table read as 8 x 1 x 64: at (p, u, k) it is the table at (p, k). -/
private theorem rowCast_apply {α : Type} (x : S8x64.Idx → α) (h : S8x64.ShapeCasts S8x1x64) (p : Fin 8) (u : Fin 1) (k : Fin 64) :
    shapeCast S8x1x64 x h (ix3 p u k) = x (ix2 p k) :=
  shapeCast_apply x h _ _ (by
    have hu : u.val = 0 := by omega
    rw [Shape.rowMajor_val_three, Shape.rowMajor_val_two]
    show p.val * 64 + k.val = (p.val * 1 + u.val) * 64 + k.val
    rw [hu, Nat.mul_one, Nat.add_zero])

/-- A column 8 x 256 x 1 spread along the last axis: at (p, n, k) it is the column at (p, n, 0). -/
private theorem colBroadcast_apply {α : Type} (x : S8x256x1.Idx → α) (h : S8x256x1.Broadcasts S8x256x64) (p : Fin 8) (n : Fin 256) (k : Fin 64) :
    broadcastTo S8x256x64 x h (ix3 p n k) = x (ix3 p n (0 : Fin 1)) := by
  refine broadcastTo_apply x h (ix3 p n k) (ix3 p n (0 : Fin 1)) fun ax => ?_
  match ax with
  | ⟨0, _⟩ => rfl
  | ⟨1, _⟩ => rfl
  | ⟨2, _⟩ => rfl

/-- A row 8 x 1 x 64 spread along the middle axis: at (p, n, k) it is the row at (p, 0, k). -/
private theorem rowBroadcast_apply {α : Type} (x : S8x1x64.Idx → α) (h : S8x1x64.Broadcasts S8x256x64) (p : Fin 8) (n : Fin 256) (k : Fin 64) :
    broadcastTo S8x256x64 x h (ix3 p n k) = x (ix3 p (0 : Fin 1) k) := by
  refine broadcastTo_apply x h (ix3 p n k) (ix3 p (0 : Fin 1) k) fun ax => ?_
  match ax with
  | ⟨0, _⟩ => rfl
  | ⟨1, _⟩ => rfl
  | ⟨2, _⟩ => rfl

/-- The inverse-square-root column built from a right block R and a left block L. -/
private def dcol (R L : FVec Ideal S8x256x64 .f32) : FVec Ideal S8x256x1 .f32 :=
  rsqrt (addf (shapeCast S8x256x1 (multiReduction .add [2] S8x256 (mulf L R) 0x00000000#32 Facts₀.reduces_S8x256x64_S8x256 (.inl rfl) rfl) Facts₀.shapeCasts_S8x256_S8x256x1) (broadcast S8x256x1 (Scalar.ofBits .f32 0x358637BD#32)))

/-- The coefficient column built from a right block R and a left block L. -/
private def coefCol (R L : FVec Ideal S8x256x64 .f32) : FVec Ideal S8x256x1 .f32 :=
  mulf (dcol R L)
    (shapeCast S8x256x1 (multiReduction .add [2] S8x256 (mulf R (broadcastTo S8x256x64
      (shapeCast S8x1x64 (multiReduction .add [1] S8x64 (mulf (broadcastTo S8x256x64 (dcol R L) Facts₀.broadcasts_S8x256x1_S8x256x64) L) 0x00000000#32 Facts₀.reduces_S8x256x64_S8x64 (.inl rfl) rfl) Facts₀.shapeCasts_S8x64_S8x1x64)
      Facts₀.broadcasts_S8x1x64_S8x256x64)) 0x00000000#32 Facts₀.reduces_S8x256x64_S8x256 (.inl rfl) rfl) Facts₀.shapeCasts_S8x256_S8x256x1)

/-- The column at (p, n, 0): the inverse square root of the stabilised sum over k of L * R. -/
private theorem dcol_apply (R L : FVec Ideal S8x256x64 .f32) (p : Fin 8) (n : Fin 256) :
    dcol R L (ix3 p n (0 : Fin 1)) = Ideal.rsqrt ((∑ k : Fin 64, L (ix3 p n k) * R (ix3 p n k)) + Corr.eps) := by
  unfold dcol
  show Ideal.rsqrt (shapeCast S8x256x1 _ _ (ix3 p n (0 : Fin 1)) + Ideal.ofBits .f32 0x358637BD#32) = _
  rw [colCast_apply, sumLast_apply]
  rfl

/-- The coefficient column at (p, n, 0). -/
private theorem coefCol_apply (R L : FVec Ideal S8x256x64 .f32) (p : Fin 8) (n : Fin 256) :
    coefCol R L (ix3 p n (0 : Fin 1))
      = dcol R L (ix3 p n (0 : Fin 1))
          * ∑ k : Fin 64, R (ix3 p n k) * ∑ n' : Fin 256, dcol R L (ix3 p n' (0 : Fin 1)) * L (ix3 p n' k) := by
  unfold coefCol
  rw [mulf_apply, colCast_apply, sumLast_apply]
  refine congrArg _ (Finset.sum_congr rfl fun k _ => ?_)
  rw [mulf_apply, rowBroadcast_apply, rowCast_apply, sumMid_apply]
  refine congrArg _ (Finset.sum_congr rfl fun n' _ => ?_)
  rw [mulf_apply, colBroadcast_apply]

/-- The coefficient column is built from the two projections alone. -/
theorem pay2_eq_of_proj (x0 : Vec Ideal S8x256x2048 .f32) (w1 w2 : Vec Ideal S64x2048 .bf16) (b1 b2 : Vec Ideal S1x64 .f32) :
    k0_pay2 (F := Ideal) x0 w1 w2 b1 b2
      = (let v21 : FVec Ideal S8x256x64 .f32 := projFlat x0 w1 b1
         let v22 : FVec Ideal S8x256x64 .f32 := projFlat x0 w2 b2
         let v28 : FVec Ideal S8x256x1 .f32 := rsqrt (addf (shapeCast S8x256x1 (multiReduction .add [2] S8x256 (mulf v22 v21) 0x00000000#32 Facts₀.reduces_S8x256x64_S8x256 (.inl rfl) rfl) Facts₀.shapeCasts_S8x256_S8x256x1) (broadcast S8x256x1 (Scalar.ofBits .f32 0x358637BD#32)))
         let v32 : FVec Ideal S8x1x64 .f32 := shapeCast S8x1x64 (multiReduction .add [1] S8x64 (mulf (broadcastTo S8x256x64 v28 Facts₀.broadcasts_S8x256x1_S8x256x64) v22) 0x00000000#32 Facts₀.reduces_S8x256x64_S8x64 (.inl rfl) rfl) Facts₀.shapeCasts_S8x64_S8x1x64
         let v36 : FVec Ideal S8x256x1 .f32 := shapeCast S8x256x1 (multiReduction .add [2] S8x256 (mulf v21 (broadcastTo S8x256x64 v32 Facts₀.broadcasts_S8x1x64_S8x256x64)) 0x00000000#32 Facts₀.reduces_S8x256x64_S8x256 (.inl rfl) rfl) Facts₀.shapeCasts_S8x256_S8x256x1
         mulf v28 v36) := rfl

/-- The second payload at (p, n, 0): d n times the sum over k of right n k times (sum over n' of d n' * left n' k). -/
theorem pay2_apply (x0 : Vec Ideal S8x256x2048 .f32) (w1 w2 : Vec Ideal S64x2048 .bf16) (b1 b2 : Vec Ideal S1x64 .f32)
    (p : Fin 8) (n : Fin 256) :
    k0_pay2 (F := Ideal) x0 w1 w2 b1 b2 (ix3 p n (0 : Fin 1))
      = Corr.dvec (slab x0 p) (mat w1) (mat w2) (row b1) (row b2) n
          * ∑ k, Corr.proj (slab x0 p) (mat w1) (row b1) n k
              * ∑ n', Corr.dvec (slab x0 p) (mat w1) (mat w2) (row b1) (row b2) n' * Corr.proj (slab x0 p) (mat w2) (row b2) n' k := by
  have hd : ∀ m : Fin 256, dcol (projFlat x0 w1 b1) (projFlat x0 w2 b2) (ix3 p m (0 : Fin 1))
      = Corr.dvec (slab x0 p) (mat w1) (mat w2) (row b1) (row b2) m := by
    intro m
    rw [dcol_apply]
    unfold Corr.dvec
    simp only [projFlat_apply]
  have e : k0_pay2 (F := Ideal) x0 w1 w2 b1 b2 = coefCol (projFlat x0 w1 b1) (projFlat x0 w2 b2) :=
    pay2_eq_of_proj x0 w1 w2 b1 b2
  rw [e, coefCol_apply]
  simp only [hd, projFlat_apply]

end Cert.KernelIdeal.Pay

end
-- ==== Proof.KPay.lean ====
/-
  What one grid point computes, index by index: the block the body stores at (p, 0, q) is the column-sum form of the
  features of local batch p, column q, of the point's slab block, the two projection matrices and the two bias rows.
-/
import proofs.«107245_j37211596653081_1_alg».proof.Proof.Gen.KernelIdeal.Skeleton
import proofs.«107245_j37211596653081_1_alg».proof.Proof.Spec
import proofs.«107245_j37211596653081_1_alg».proof.Proof.Consts
import proofs.«107245_j37211596653081_1_alg».proof.Proof.KPay2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The third payload is 257 everywhere. -/
theorem pay3_apply (i : S8x256x1.Idx) : k0_pay3 (F := Ideal) i = Corr.c257 := by
  unfold k0_pay3 Corr.c257
  rfl

/-- The first payload at (p, 0, q), for any two column vectors a (subtracted) and c (subtracted from). -/
theorem pay1_apply (x0 : Vec Ideal S8x256x2048 .f32) (a c : FVec Ideal S8x256x1 .f32) (p : Fin 8) (q : Fin 2048) :
    k0_pay1 (F := Ideal) x0 a c (ix3 p (0 : Fin 1) q)
      = (∑ mm : Fin 256, (c (ix3 p mm (0 : Fin 1)) - a (ix3 p mm (0 : Fin 1))) * x0 (ix3 p mm q)) * Corr.cInv256 := by
  unfold k0_pay1 Corr.cInv256
  rw [shapeCast_apply _ _ _ (ix2 p q) (by
    rw [Shape.rowMajor_val_three, Shape.rowMajor_val_two]
    show p.val * 2048 + q.val = (p.val * 1 + 0) * 2048 + q.val
    omega)]
  rw [mulf_apply, broadcast_apply]
  refine congrArg (· * Ideal.ofBits FTy.f32 0x3B800000#32) ?_
  refine (Ideal.multiReduction_add_single _ _ reduces_S8x256x2048_S8x2048 _ _ (ix2 p q)).trans ?_
  refine Finset.sum_congr rfl fun (mm : Fin 256) _ => ?_
  have hl : reduces_S8x256x2048_S8x2048.lift (ix2 p q) mm = ix3 p mm q := by
    funext d; apply Fin.ext; match d with | ⟨0, _⟩ => rfl | ⟨1, _⟩ => rfl | ⟨2, _⟩ => rfl
  rw [hl, mulf_apply, broadcastTo_apply _ _ _ (ix3 p mm (0 : Fin 1)) (fun d => by
    match d with | ⟨0, _⟩ => rfl | ⟨1, _⟩ => rfl | ⟨2, _⟩ => rfl), subf_apply]

/-- The stored block at (p, 0, q) is the column-sum form. -/
theorem pay_apply (x0 : Vec Ideal S8x256x2048 .f32) (w1 w2 : Vec Ideal S64x2048 .bf16) (b1 b2 : Vec Ideal S1x64 .f32)
    (p : Fin 8) (q : Fin 2048) :
    k0_pay1 (F := Ideal) x0 (k0_pay2 (F := Ideal) x0 w1 w2 b1 b2) (k0_pay3 (F := Ideal)) (ix3 p (0 : Fin 1) q)
      = Corr.featK (slab x0 p) (mat w1) (mat w2) (row b1) (row b2) q := by
  rw [pay1_apply]
  unfold Corr.featK
  refine congrArg (· * Corr.cInv256) ?_
  refine Finset.sum_congr rfl fun mm _ => ?_
  rw [pay3_apply, pay2_apply]

end Cert.KernelIdeal.Pay

end
-- ==== Proof.KBlocks.lean ====
/-
  From blocks to the array: after the run the 64 x 1 x 2048 output array holds, at (b, 0, q), the column-sum form of the
  features of batch b, column q, of the arrays the region found. Grid point t writes batches 8 t .. 8 t + 7, each output
  row is covered by exactly the point b / 8, and within that point the local batch is b mod 8.
-/
import proofs.«107245_j37211596653081_1_alg».proof.Proof.Gen.KernelIdeal.Frame
import proofs.«107245_j37211596653081_1_alg».proof.Proof.Spec
import proofs.«107245_j37211596653081_1_alg».proof.Proof.KPay
import Idealize.ShloMosaic.Lib.ValueIdx
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The zero offsets of a rank-3 whole-block access, however spelt. -/
theorem zeros3 : (![0, 0, 0] : Fin 3 → Nat) = fun _ => 0 := funext fun a => by fin_cases a <;> rfl
/-- The zero offsets of a rank-2 whole-block access, however spelt. -/
theorem zeros2 : (![0, 0] : Fin 2 → Nat) = fun _ => 0 := funext fun a => by fin_cases a <;> rfl

/-- The block indices over the grid: the slab window and the output window sit at (t, 0, 0) at point t, the two
    matrices and the two bias rows at (0, 0) at every point. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- What the output array ends holding: at (b, 0, q) the column-sum form of batch b's features at column q. -/
abbrev feat (c : Dev nD) : S64x1x2048.Idx → EReal := fun i =>
  Corr.featK (fun n v => V m c main_arg0 (ix3 (i 0 : Fin 64) n v)) (fun k v => V m c main_v5 (ix2 k v))
    (fun k v => V m c main_v11 (ix2 k v)) (fun k => V m c main_v12 (ix2 (0 : Fin 1) k))
    (fun k => V m c main_v13 (ix2 (0 : Fin 1) k)) (i 2 : Fin 2048)

/-- The stored block at any of its indices (p, 0, q). -/
theorem pay_at (x0 : Vec Ideal S8x256x2048 .f32) (w1 w2 : Vec Ideal S64x2048 .bf16) (b1 b2 : Vec Ideal S1x64 .f32)
    (j : S8x1x2048.Idx) :
    k0_pay1 (F := Ideal) x0 (k0_pay2 (F := Ideal) x0 w1 w2 b1 b2) (k0_pay3 (F := Ideal)) j
      = Corr.featK (Pay.slab x0 (j 0)) (Pay.mat w1) (Pay.mat w2) (Pay.row b1) (Pay.row b2) (j 2) := by
  obtain ⟨p, z, q, rfl⟩ : ∃ (p : Fin 8) (z : Fin 1) (q : Fin 2048), j = ix3 p z q := ⟨j 0, j 1, j 2, eq_ix3 j⟩
  obtain rfl : z = 0 := Subsingleton.elim _ _
  exact Pay.pay_apply x0 w1 w2 b1 b2 p q

/-- The slab window's block at point t is batches 8 t .. 8 t + 7 of the slab array. -/
theorem slab_block (c : Dev nD) (t : Fin cfg0.N) (y : S8x256x2048.Idx) (k : S64x256x2048.Idx)
    (h0 : (k 0).val = t.val * 8 + (y 0).val) (h1 : (k 1).val = (y 1).val) (h2 : (k 2).val = (y 2).val) :
    (iblk m c 0 t : Vec Ideal S8x256x2048 .f32) y = (V m c main_arg0 : S64x256x2048.Idx → EReal) k := by
  obtain ⟨e0, e1, e2, -⟩ := index_facts t
  unfold iblk
  rw [View.read_apply]
  show V m c main_arg0 _ = V m c main_arg0 _
  congr 1
  funext a
  apply Fin.ext
  match a with
  | ⟨0, _⟩ => show win0_0.index t (0 : Fin 3) * 8 + 1 * (y 0).val = (k 0).val; rw [e0, h0]; omega
  | ⟨1, _⟩ => show win0_0.index t (1 : Fin 3) * 256 + 1 * (y 1).val = (k 1).val; rw [e1, h1]; omega
  | ⟨2, _⟩ => show win0_0.index t (2 : Fin 3) * 2048 + 1 * (y 2).val = (k 2).val; rw [e2, h2]; omega

/-- The first matrix window's block at every point is the whole array. -/
theorem mat1_block (c : Dev nD) (t : Fin cfg0.N) (y : S64x2048.Idx) :
    (iblk m c 1 t : Vec Ideal S64x2048 .bf16) y = (V m c main_v5 : S64x2048.Idx → EReal) y := by
  obtain ⟨-, -, -, e0, e1, -⟩ := index_facts t
  unfold iblk
  rw [View.read_apply]
  show V m c main_v5 _ = V m c main_v5 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 2048 + 1 * (y 1).val = (y 1).val; rw [e1]; omega

/-- The first bias window's block at every point is the whole row. -/
theorem bias1_block (c : Dev nD) (t : Fin cfg0.N) (y : S1x64.Idx) :
    (iblk m c 2 t : Vec Ideal S1x64 .f32) y = (V m c main_v12 : S1x64.Idx → EReal) y := by
  obtain ⟨-, -, -, -, -, e0, e1, -⟩ := index_facts t
  unfold iblk
  rw [View.read_apply]
  show V m c main_v12 _ = V m c main_v12 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second matrix window's block at every point is the whole array. -/
theorem mat2_block (c : Dev nD) (t : Fin cfg0.N) (y : S64x2048.Idx) :
    (iblk m c 3 t : Vec Ideal S64x2048 .bf16) y = (V m c main_v11 : S64x2048.Idx → EReal) y := by
  obtain ⟨-, -, -, -, -, -, -, e0, e1, -⟩ := index_facts t
  unfold iblk
  rw [View.read_apply]
  show V m c main_v11 _ = V m c main_v11 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 2048 + 1 * (y 1).val = (y 1).val; rw [e1]; omega

/-- The second bias window's block at every point is the whole row. -/
theorem bias2_block (c : Dev nD) (t : Fin cfg0.N) (y : S1x64.Idx) :
    (iblk m c 4 t : Vec Ideal S1x64 .f32) y = (V m c main_v13 : S1x64.Idx → EReal) y := by
  obtain ⟨-, -, -, -, -, -, -, -, -, e0, e1, -⟩ := index_facts t
  unfold iblk
  rw [View.read_apply]
  show V m c main_v13 _ = V m c main_v13 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The column-sum form depends only on its six arguments. -/
theorem featK_congr {X X' : Fin 256 → Fin 2048 → EReal} {W1 W1' W2 W2' : Fin 64 → Fin 2048 → EReal}
    {b1 b1' b2 b2' : Fin 64 → EReal} {q q' : Fin 2048} (hX : X = X') (hW1 : W1 = W1') (hW2 : W2 = W2')
    (hb1 : b1 = b1') (hb2 : b2 = b2') (hq : q = q') :
    Corr.featK X W1 W2 b1 b2 q = Corr.featK X' W1' W2' b1' b2' q' := by
  subst hX hW1 hW2 hb1 hb2 hq; rfl

/-- What point t writes back is block t of the feature array. -/
theorem flushed_eq (c : Dev nD) (t : Fin cfg0.N) :
    (dats m 0 c).flushed 5 t = ((cfg0.win 5).blk t).view.read (Elt Ideal) (feat m c) := by
  show (cfg0.win 5).cut (grid0.coords t) ((dats m 0 c).after 5 t) = _
  rw [after0_5]
  unfold out0_5
  rw [View.canon_unit_zero zeros3]
  simp only [View.ld_unit_zero (S := S8x256x2048) zeros3, View.ld_unit_zero (S := S64x2048) zeros2,
    View.ld_unit_zero (S := S1x64) zeros2]
  obtain ⟨-, -, -, -, -, -, -, -, -, -, -, e0, e1, e2⟩ := index_facts t
  funext j
  show k0_pay1 (F := Ideal) (iblk m c 0 t) (k0_pay2 (F := Ideal) (iblk m c 0 t) (iblk m c 1 t) (iblk m c 3 t) (iblk m c 2 t) (iblk m c 4 t)) (k0_pay3 (F := Ideal)) j
    = feat m c (((cfg0.win 5).blk t).view.emb j)
  refine (pay_at (iblk m c 0 t) (iblk m c 1 t) (iblk m c 3 t) (iblk m c 2 t) (iblk m c 4 t) j).trans ?_
  have hb : ((((cfg0.win 5).blk t).view.emb j) 0).val = t.val * 8 + (j 0).val := by
    show win0_5.index t (0 : Fin 3) * 8 + 1 * (j 0).val = _; rw [e0]; omega
  have hq : (((cfg0.win 5).blk t).view.emb j) 2 = j 2 := Fin.ext (by
    show win0_5.index t (2 : Fin 3) * 2048 + 1 * (j 2).val = (j 2).val; rw [e2]; omega)
  refine featK_congr ?_ ?_ ?_ ?_ ?_ hq.symm
  · funext n v; exact slab_block m c t _ _ hb rfl rfl
  · funext k v; exact mat1_block m c t _
  · funext k v; exact mat2_block m c t _
  · funext k; exact bias1_block m c t _
  · funext k; exact bias2_block m c t _

/-- An index of the output array is in point t's block iff each coordinate is in the block's range on its axis. -/
theorem mem_block (t : Fin cfg0.N) (i : S64x1x2048.Idx) :
    i ∈ ((cfg0.win 5).blk t).view.set ↔ ∀ a : Fin 3, win0_5.index t a * S8x1x2048.size a ≤ (i a).val
      ∧ (i a).val < win0_5.index t a * S8x1x2048.size a + S8x1x2048.size a := by
  show i ∈ ((View.whole main_v14).slice (win0_5.rect t)).set ↔ _
  rw [View.set_slice_whole, Rect.mem_set_unit]
  exact Iff.rfl

/-- Output row b is in the block of point b / 8, which writes back. -/
theorem covered (i : S64x1x2048.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 2048 := (i 2).isLt
  have hN : cfg0.N = 8 := N_0
  have ht : (i 0).val / 8 < cfg0.N := by rw [hN]; omega
  obtain ⟨-, -, -, -, -, -, -, -, -, -, -, e0, e1, e2⟩ := index_facts ⟨(i 0).val / 8, ht⟩
  refine ⟨⟨(i 0).val / 8, ht⟩, flush0_5 _, ?_⟩
  rw [mem_block]
  intro a
  match a with
  | ⟨0, _⟩ =>
    show win0_5.index ⟨(i 0).val / 8, ht⟩ (0 : Fin 3) * 8 ≤ (i 0).val
      ∧ (i 0).val < win0_5.index ⟨(i 0).val / 8, ht⟩ (0 : Fin 3) * 8 + 8
    rw [e0]; show (i 0).val / 8 * 8 ≤ (i 0).val ∧ (i 0).val < (i 0).val / 8 * 8 + 8; omega
  | ⟨1, _⟩ =>
    show win0_5.index ⟨(i 0).val / 8, ht⟩ (1 : Fin 3) * 1 ≤ (i 1).val
      ∧ (i 1).val < win0_5.index ⟨(i 0).val / 8, ht⟩ (1 : Fin 3) * 1 + 1
    rw [e1]; omega
  | ⟨2, _⟩ =>
    show win0_5.index ⟨(i 0).val / 8, ht⟩ (2 : Fin 3) * 2048 ≤ (i 2).val
      ∧ (i 2).val < win0_5.index ⟨(i 0).val / 8, ht⟩ (2 : Fin 3) * 2048 + 2048
    rw [e2]; omega

/-- The output array after the run, as one function of the arrays the region found. -/
theorem final5 (c : Dev nD) : (dats m 0 c).arrAt 5 cfg0.N = fun i : S64x1x2048.Idx =>
    Corr.featK (fun n v => V m c main_arg0 (ix3 (i 0 : Fin 64) n v)) (fun k v => V m c main_v5 (ix2 k v))
      (fun k v => V m c main_v11 (ix2 k v)) (fun k => V m c main_v12 (ix2 (0 : Fin 1) k))
      (fun k => V m c main_v13 (ix2 (0 : Fin 1) k)) (i 2 : Fin 2048) :=
  (dats m 0 c).arrAt_eq_of_cover 5 (feat m c) (fun t _ => flushed_eq m c t) covered

end Cert.KernelIdeal.Blocks

end
-- ==== Proof.Tail.lean ====
/-
  What both programs do with the 64 x 2048 feature array: a linear layer (features times the transposed weight, plus a
  bias) followed by batch normalisation over the 64 rows (subtract the column mean, scale by the inverse square root of
  the biased column variance plus a stabiliser, then an affine map). It is carried as ONE function of the features and
  the four parameter arrays and never opened: the two programs agree as soon as their features agree.
-/
import proofs.«107245_j37211596653081_1_alg».proof.Proof.Gen.ReferenceIdeal.Read

noncomputable section

namespace Cert.Tail

open Cert.ReferenceIdeal Cert.ReferenceIdeal.Gen Cert.ReferenceIdeal.Read Idealize.ShloMosaic Idealize.ShloMosaic.TcCoe Idealize.SL.Sem Idealize.ShloMosaic.StableHlo

/-- The linear layer and the batch normalisation, as a function of the features `f`, the weight `x7`, the bias `x8` and
    the affine parameters `x9`, `x10`. -/
def tailOf (f : (⟨S64x2048, .f32⟩ : BufTy).Contents (Elt Ideal)) (x7 : (⟨S1024x2048, .f32⟩ : BufTy).Contents (Elt Ideal))
    (x8 x9 x10 : (⟨S1024, .f32⟩ : BufTy).Contents (Elt Ideal)) : (⟨S64x1024, .f32⟩ : BufTy).Contents (Elt Ideal) :=
  let t52 : (⟨S2048x1024, .f32⟩ : BufTy).Contents (Elt Ideal) :=
    transpose S2048x1024 [1, 0] (x7) transposes_S1024x2048_S2048x1024_1_0
  let t53 : (⟨S64x1024, .f32⟩ : BufTy).Contents (Elt Ideal) :=
    Host.dotGeneral (F := Ideal) (φ₁ := .f32) (φ₂ := .f32) dot_S64x2048_S2048x1024_S64x1024_1_0_0_1_n_n none f t52
  let t54 : (⟨S1x1024, .f32⟩ : BufTy).Contents (Elt Ideal) :=
    broadcastInDim S1x1024 ![1] bcast_S1024_S1x1024_1 (x8)
  let t55 : (⟨S64x1024, .f32⟩ : BufTy).Contents (Elt Ideal) :=
    broadcastInDim S64x1024 ![0, 1] bcast_S1x1024_S64x1024_0_1 t54
  let t56 : (⟨S64x1024, .f32⟩ : BufTy).Contents (Elt Ideal) := addf (F := Ideal) (s := S64x1024) (φ := .f32) t53 t55
  let c5 : (⟨S_, .f32⟩ : BufTy).Contents (Elt Ideal) := constant (F := Ideal) S_ .f32 0x00000000#32
  let t57 : (⟨S1024, .f32⟩ : BufTy).Contents (Elt Ideal) :=
    Host.reduceAdd (F := Ideal) (s := S64x1024) (φ := .f32) t56 c5 reducesTo_S64x1024_S1024_d0 h_S_
  let c6 : (⟨S_, .f32⟩ : BufTy).Contents (Elt Ideal) := constant (F := Ideal) S_ .f32 0x42800000#32
  let t58 : (⟨S1024, .f32⟩ : BufTy).Contents (Elt Ideal) := broadcastInDim S1024 ![] bcast_S_S1024 c6
  let t59 : (⟨S1024, .f32⟩ : BufTy).Contents (Elt Ideal) := Host.divf (F := Ideal) (s := S1024) (φ := .f32) t57 t58
  let t60 : (⟨S1x1024, .f32⟩ : BufTy).Contents (Elt Ideal) :=
    broadcastInDim S1x1024 ![1] bcast_S1024_S1x1024_1 t59
  let t61 : (⟨S64x1024, .f32⟩ : BufTy).Contents (Elt Ideal) :=
    broadcastInDim S64x1024 ![0, 1] bcast_S1x1024_S64x1024_0_1 t60
  let t62 : (⟨S64x1024, .f32⟩ : BufTy).Contents (Elt Ideal) := subf (F := Ideal) (s := S64x1024) (φ := .f32) t56 t61
  let t63 : (⟨S64x1024, .f32⟩ : BufTy).Contents (Elt Ideal) := mulf (F := Ideal) (s := S64x1024) (φ := .f32) t62 t62
  let c7 : (⟨S_, .f32⟩ : BufTy).Contents (Elt Ideal) := constant (F := Ideal) S_ .f32 0x00000000#32
  let t64 : (⟨S1024, .f32⟩ : BufTy).Contents (Elt Ideal) :=
    Host.reduceAdd (F := Ideal) (s := S64x1024) (φ := .f32) t63 c7 reducesTo_S64x1024_S1024_d0 h_S_
  let c8 : (⟨S_, .f32⟩ : BufTy).Contents (Elt Ideal) := constant (F := Ideal) S_ .f32 0x42800000#32
  let t65 : (⟨S1024, .f32⟩ : BufTy).Contents (Elt Ideal) := broadcastInDim S1024 ![] bcast_S_S1024 c8
  let t66 : (⟨S1024, .f32⟩ : BufTy).Contents (Elt Ideal) := Host.divf (F := Ideal) (s := S1024) (φ := .f32) t64 t65
  let t67 : (⟨S1x1024, .f32⟩ : BufTy).Contents (Elt Ideal) :=
    broadcastInDim S1x1024 ![1] bcast_S1024_S1x1024_1 t59
  let t68 : (⟨S64x1024, .f32⟩ : BufTy).Contents (Elt Ideal) :=
    broadcastInDim S64x1024 ![0, 1] bcast_S1x1024_S64x1024_0_1 t67
  let t69 : (⟨S64x1024, .f32⟩ : BufTy).Contents (Elt Ideal) := subf (F := Ideal) (s := S64x1024) (φ := .f32) t56 t68
  let t70 : (⟨S1x1024, .f32⟩ : BufTy).Contents (Elt Ideal) :=
    broadcastInDim S1x1024 ![1] bcast_S1024_S1x1024_1 (x9)
  let t71 : (⟨S64x1024, .f32⟩ : BufTy).Contents (Elt Ideal) :=
    broadcastInDim S64x1024 ![0, 1] bcast_S1x1024_S64x1024_0_1 t70
  let t72 : (⟨S64x1024, .f32⟩ : BufTy).Contents (Elt Ideal) := mulf (F := Ideal) (s := S64x1024) (φ := .f32) t71 t69
  let c9 : (⟨S_, .f32⟩ : BufTy).Contents (Elt Ideal) := constant (F := Ideal) S_ .f32 0x3727C5AC#32
  let t73 : (⟨S1024, .f32⟩ : BufTy).Contents (Elt Ideal) := broadcastInDim S1024 ![] bcast_S_S1024 c9
  let t74 : (⟨S1024, .f32⟩ : BufTy).Contents (Elt Ideal) := addf (F := Ideal) (s := S1024) (φ := .f32) t66 t73
  let t75 : (⟨S1024, .f32⟩ : BufTy).Contents (Elt Ideal) := Host.rsqrt (F := Ideal) (s := S1024) (φ := .f32) t74
  let t76 : (⟨S1x1024, .f32⟩ : BufTy).Contents (Elt Ideal) :=
    broadcastInDim S1x1024 ![1] bcast_S1024_S1x1024_1 t75
  let t77 : (⟨S64x1024, .f32⟩ : BufTy).Contents (Elt Ideal) :=
    broadcastInDim S64x1024 ![0, 1] bcast_S1x1024_S64x1024_0_1 t76
  let t78 : (⟨S64x1024, .f32⟩ : BufTy).Contents (Elt Ideal) := mulf (F := Ideal) (s := S64x1024) (φ := .f32) t72 t77
  let t79 : (⟨S1x1024, .f32⟩ : BufTy).Contents (Elt Ideal) :=
    broadcastInDim S1x1024 ![1] bcast_S1024_S1x1024_1 (x10)
  let t80 : (⟨S64x1024, .f32⟩ : BufTy).Contents (Elt Ideal) :=
    broadcastInDim S64x1024 ![0, 1] bcast_S1x1024_S64x1024_0_1 t79
  addf (F := Ideal) (s := S64x1024) (φ := .f32) t78 t80

/-- The reference's result is that function of its own features. -/
theorem v81_eq_tail (x0 : (⟨S64x256x2048, .f32⟩ : BufTy).Contents (Elt Ideal)) (x1 : (⟨S64x2048, .f32⟩ : BufTy).Contents (Elt Ideal))
    (x2 x3 : (⟨S64, .f32⟩ : BufTy).Contents (Elt Ideal)) (x4 : (⟨S64x2048, .f32⟩ : BufTy).Contents (Elt Ideal))
    (x5 x6 : (⟨S64, .f32⟩ : BufTy).Contents (Elt Ideal)) (x7 : (⟨S1024x2048, .f32⟩ : BufTy).Contents (Elt Ideal))
    (x8 x9 x10 : (⟨S1024, .f32⟩ : BufTy).Contents (Elt Ideal)) :
    val_main_v81 (F := Ideal) x0 x1 x2 x3 x4 x5 x6 x7 x8 x9 x10
      = tailOf (val_main_v51 (F := Ideal) x0 x1 x2 x3 x4 x5 x6) x7 x8 x9 x10 := by
  rfl

end Cert.Tail

end
-- ==== Proof.KHost.lean ====
/-
  The host lines around the region. Before it: the two projection matrices the region stages are the weight-normalised
  matrices (rounded to a narrower format, which changes nothing over the extended reals), and the two bias rows are the
  biases laid out as one row. After it: the result is the linear layer and batch normalisation of the region's output
  array read as a 64 x 2048 table.
-/
import proofs.«107245_j37211596653081_1_alg».proof.Proof.Gen.KernelIdeal.Frame
import proofs.«107245_j37211596653081_1_alg».proof.Proof.Gen.ReferenceIdeal.Read
import proofs.«107245_j37211596653081_1_alg».proof.Proof.Tail
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- A 64 x 1 x 2048 array read as a 64 x 2048 table. -/
def flat (A : S64x1x2048.Idx → EReal) : (⟨Cert.ReferenceIdeal.S64x2048, .f32⟩ : BufTy).Contents (Elt Ideal) :=
  fun j => A (ix3 (j 0 : Fin 64) (0 : Fin 1) (j 1 : Fin 2048))

theorem flat_apply (A : S64x1x2048.Idx → EReal) (b : Fin 64) (q : Fin 2048) : flat A (ix2 b q) = A (ix3 b (0 : Fin 1) q) := rfl

/-- The 64 x 1 x 2048 array recast as a 64 x 2048 table is the array read as that table: entry (b, q) of the table and
    entry (b, 0, q) of the array stand at the same row-major position, b * 2048 + q. -/
theorem reshape_flat (A : S64x1x2048.Idx → EReal) :
    (fun i => shapeCast S64x2048 A shapeCasts_S64x1x2048_S64x2048 i) = flat A := by
  funext j
  refine shapeCast_apply A shapeCasts_S64x1x2048_S64x2048 j (ix3 (j 0 : Fin 64) (0 : Fin 1) (j 1 : Fin 2048)) ?_
  rw [Shape.rowMajor_val_three, Shape.rowMajor_val_two]
  show ((j 0).val * 1 + 0) * 2048 + (j 1).val = (j 0).val * 2048 + (j 1).val
  omega

/-- The first projection matrix the region stages is the first weight-normalised matrix. -/
theorem V_v5 (c : Dev nD) : V m c main_v5 = Cert.ReferenceIdeal.Read.val_main_v4 (F := Ideal) (m ((c : Thread nD τ).loc main_arg1)) (m ((c : Thread nD τ).loc main_arg2)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The second projection matrix the region stages is the second weight-normalised matrix. -/
theorem V_v11 (c : Dev nD) : V m c main_v11 = Cert.ReferenceIdeal.Read.val_main_v9 (F := Ideal) (m ((c : Thread nD τ).loc main_arg4)) (m ((c : Thread nD τ).loc main_arg5)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The first bias row is the first bias. -/
theorem V_v12_apply (c : Dev nD) (k : Fin 64) : V m c main_v12 (ix2 (0 : Fin 1) k) = (m ((c : Thread nD τ).loc main_arg3)) (ix1 k) := by
  dsimp only [Gen.V, Gen.V0]
  simp only [Gen.hostOps0, Gen.hostOps0_1, Gen.hostOps0_2, Gen.hostOps0_3, List.flatten_cons, List.flatten_nil, List.append_nil, List.cons_append, List.nil_append]
  after_results
  exact shapeCast_a_1a_apply (a := 64) (m ((c : Thread nD τ).loc main_arg3)) shapeCasts_S64_S1x64 (0 : Fin 1) k

/-- The second bias row is the second bias. -/
theorem V_v13_apply (c : Dev nD) (k : Fin 64) : V m c main_v13 (ix2 (0 : Fin 1) k) = (m ((c : Thread nD τ).loc main_arg6)) (ix1 k) := by
  dsimp only [Gen.V, Gen.V0]
  simp only [Gen.hostOps0, Gen.hostOps0_1, Gen.hostOps0_2, Gen.hostOps0_3, List.flatten_cons, List.flatten_nil, List.append_nil, List.cons_append, List.nil_append]
  after_results
  exact shapeCast_a_1a_apply (a := 64) (m ((c : Thread nD τ).loc main_arg6)) shapeCasts_S64_S1x64 (0 : Fin 1) k

set_option maxHeartbeats 1600000 in
/-- The result buffer after the lines that follow the region: the shared tail of the region's output array. -/
theorem tail_eq (c : Dev nD) :
    Pipeline.afterTail₀ cfgs (dats m) 0 (V0 m) [hostOps1] c main_v45
      = Cert.Tail.tailOf (flat ((dats m 0 c).arrAt 5 cfg0.N)) (m ((c : Thread nD τ).loc main_arg7)) (m ((c : Thread nD τ).loc main_arg8)) (m ((c : Thread nD τ).loc main_arg9)) (m ((c : Thread nD τ).loc main_arg10)) := by
  -- the four parameter arrays are no array of the region: the later lines find them as launched
  have h7 : Pipeline.withArrays (cfgs 0).spec c (V0 m c) (fun w => (dats m 0 c).arrAt w (cfgs 0).N) (Proc.devRef .tc main_arg7) = m ((c : Thread nD τ).loc main_arg7) :=
    (Pipeline.withArrays_of_ne _ c _ _ main_arg7 (by intro w; fin_cases w <;> decide)).trans (V_main_arg7 m c)
  have h8 : Pipeline.withArrays (cfgs 0).spec c (V0 m c) (fun w => (dats m 0 c).arrAt w (cfgs 0).N) (Proc.devRef .tc main_arg8) = m ((c : Thread nD τ).loc main_arg8) :=
    (Pipeline.withArrays_of_ne _ c _ _ main_arg8 (by intro w; fin_cases w <;> decide)).trans (V_main_arg8 m c)
  have h9 : Pipeline.withArrays (cfgs 0).spec c (V0 m c) (fun w => (dats m 0 c).arrAt w (cfgs 0).N) (Proc.devRef .tc main_arg9) = m ((c : Thread nD τ).loc main_arg9) :=
    (Pipeline.withArrays_of_ne _ c _ _ main_arg9 (by intro w; fin_cases w <;> decide)).trans (V_main_arg9 m c)
  have h10 : Pipeline.withArrays (cfgs 0).spec c (V0 m c) (fun w => (dats m 0 c).arrAt w (cfgs 0).N) (Proc.devRef .tc main_arg10) = m ((c : Thread nD τ).loc main_arg10) :=
    (Pipeline.withArrays_of_ne _ c _ _ main_arg10 (by intro w; fin_cases w <;> decide)).trans (V_main_arg10 m c)
  -- the region's output array is its sixth array: the later lines find what the region left there
  have h14 : Pipeline.withArrays (cfgs 0).spec c (V0 m c) (fun w => (dats m 0 c).arrAt w (cfgs 0).N) (Proc.devRef .tc main_v14) = (dats m 0 c).arrAt 5 cfg0.N :=
    Pipeline.withArrays_arr spec0 launch0.win.arr_inj c _ _ 5
  have e : (fun i => shapeCast main_v15.ty.shape ((dats m 0 c).arrAt 5 cfg0.N) shapeCasts_S64x1x2048_S64x2048 i) = flat ((dats m 0 c).arrAt 5 cfg0.N) :=
    reshape_flat _
  unfold Pipeline.afterTail₀
  show StableHlo.after hostOps1 _ (Proc.devRef .tc main_v45) = _
  after_results_simp
  rw [h7, h8, h9, h10, h14, e]
  -- both sides are now the same operations applied to the same five arrays
  generalize flat ((dats m 0 c).arrAt 5 cfg0.N) = f
  generalize m ((c : Thread nD τ).loc main_arg7) = x7
  generalize m ((c : Thread nD τ).loc main_arg8) = x8
  generalize m ((c : Thread nD τ).loc main_arg9) = x9
  generalize m ((c : Thread nD τ).loc main_arg10) = x10
  rfl

end Cert.KernelIdeal.Host

end
-- ==== Proof.RefHead.lean ====
/-
  The reference's two projection matrices, entry by entry: each is the weight normalisation of its argument pair — row k
  of v scaled by g k over the square root of the sum of the squares of that row.
-/
import proofs.«107245_j37211596653081_1_alg».proof.Proof.Gen.ReferenceIdeal.Read
import proofs.«107245_j37211596653081_1_alg».proof.Proof.Spec
import proofs.«107245_j37211596653081_1_alg».proof.Proof.Consts
import Idealize.ShloMosaic.Lib.ValueIdx
import Idealize.ShloMosaic.PureOps.Ideal.Laws

noncomputable section

open scoped BigOperators

namespace Cert.ReferenceIdeal.Head

open Cert.ReferenceIdeal Cert.ReferenceIdeal.Gen Cert.ReferenceIdeal.Read Idealize.ShloMosaic Idealize.ShloMosaic.ValueIdx

/-- Reading through the two broadcasts lands on the row coordinate. -/
private theorem idx_v2_v3 (k : Fin 64) (x : Fin 2048) : idx_main_v2 (idx_main_v3 (ix2 k x)) = ix1 k :=
  funext fun a => Fin.ext (by match a with | ⟨0, _⟩ => rfl)

/-- The row sum of row k runs over the entries of that row. -/
private theorem idx_call0 (k : Fin 64) (y : Fin 2048) : idx_main_call0_v1 (ix1 k) y = ix2 k y :=
  funext fun a => Fin.ext (by match a with | ⟨0, _⟩ => rfl | ⟨1, _⟩ => rfl)

private theorem idx_v7_v8 (k : Fin 64) (x : Fin 2048) : idx_main_v7 (idx_main_v8 (ix2 k x)) = ix1 k :=
  funext fun a => Fin.ext (by match a with | ⟨0, _⟩ => rfl)

private theorem idx_call1 (k : Fin 64) (y : Fin 2048) : idx_main_call1_v1 (ix1 k) y = ix2 k y :=
  funext fun a => Fin.ext (by match a with | ⟨0, _⟩ => rfl | ⟨1, _⟩ => rfl)

theorem v4_apply (x1 : (⟨S64x2048, .f32⟩ : BufTy).Contents (Elt Ideal)) (x2 : (⟨S64, .f32⟩ : BufTy).Contents (Elt Ideal))
    (k : Fin 64) (x : Fin 2048) :
    val_main_v4 (F := Ideal) x1 x2 (ix2 k x) = Corr.wnorm (fun k x => x1 (ix2 k x)) (fun k => x2 (ix1 k)) k x := by
  rw [val_main_v4_apply, val_main_v3_apply, val_main_v2_apply, val_main_v1_apply, val_main_v0_apply,
    val_main_call0_v1_apply]
  simp only [idx_v2_v3, idx_call0, val_main_call0_v0_apply, val_main_call0_cst_apply, Ideal.mulf_def,
    Ideal.hostDivf_def, Ideal.hostUnary_sqrt_def, Ideal.ofBits_def, Corr.ofBits_zero, zero_add]
  rfl

theorem v9_apply (x4 : (⟨S64x2048, .f32⟩ : BufTy).Contents (Elt Ideal)) (x5 : (⟨S64, .f32⟩ : BufTy).Contents (Elt Ideal))
    (k : Fin 64) (x : Fin 2048) :
    val_main_v9 (F := Ideal) x4 x5 (ix2 k x) = Corr.wnorm (fun k x => x4 (ix2 k x)) (fun k => x5 (ix1 k)) k x := by
  rw [val_main_v9_apply, val_main_v8_apply, val_main_v7_apply, val_main_v6_apply, val_main_v5_apply,
    val_main_call1_v1_apply]
  simp only [idx_v7_v8, idx_call1, val_main_call1_v0_apply, val_main_call1_cst_apply, Ideal.mulf_def,
    Ideal.hostDivf_def, Ideal.hostUnary_sqrt_def, Ideal.ofBits_def, Corr.ofBits_zero, zero_add]
  rfl

end Cert.ReferenceIdeal.Head

end
-- ==== Proof.RefFeat.lean ====
/-
  The reference's feature array, entry by entry: at (b, q) it is the matrix form of the features of batch b, column q,
  of the slab, the two weight-normalised matrices and the two biases. The diagonal of left * right^T, which the
  reference picks out of the full product by an equality mask and a sum, is the row-wise product of left and right.
-/
import proofs.«107245_j37211596653081_1_alg».proof.Proof.Gen.ReferenceIdeal.Read
import proofs.«107245_j37211596653081_1_alg».proof.Proof.Spec
import proofs.«107245_j37211596653081_1_alg».proof.Proof.Consts
import Idealize.ShloMosaic.Lib.ValueIdx
import Idealize.ShloMosaic.PureOps.Ideal.Laws

noncomputable section

open scoped BigOperators

namespace Cert.ReferenceIdeal.Feat

open Cert.ReferenceIdeal Cert.ReferenceIdeal.Gen Cert.ReferenceIdeal.Read Idealize.ShloMosaic Idealize.ShloMosaic.ValueIdx

section Stages

variable (x0 : (⟨S64x256x2048, .f32⟩ : BufTy).Contents (Elt Ideal)) (x1 : (⟨S64x2048, .f32⟩ : BufTy).Contents (Elt Ideal)) (x2 x3 : (⟨S64, .f32⟩ : BufTy).Contents (Elt Ideal)) (x4 : (⟨S64x2048, .f32⟩ : BufTy).Contents (Elt Ideal)) (x5 x6 : (⟨S64, .f32⟩ : BufTy).Contents (Elt Ideal))

/-! ## Where each stage reads its operands -/

private theorem lidx10 (b : Fin 64) (n : Fin 256) (k : Fin 64) (v : Fin 2048) : lidx_main_v10 (ix3 b n k) v = ix3 b n v :=
  funext fun a => Fin.ext (by match a with | ⟨0, _⟩ => rfl | ⟨1, _⟩ => rfl | ⟨2, _⟩ => rfl)
private theorem ridx10 (b : Fin 64) (n : Fin 256) (k : Fin 64) (v : Fin 2048) : ridx_main_v10 (ix3 b n k) v = ix2 k v :=
  funext fun a => Fin.ext (by match a with | ⟨0, _⟩ => rfl | ⟨1, _⟩ => rfl)
private theorem idx11_12 (b : Fin 64) (n : Fin 256) (k : Fin 64) : idx_main_v11 (idx_main_v12 (ix3 b n k)) = ix1 k :=
  funext fun a => Fin.ext (by match a with | ⟨0, _⟩ => rfl)
private theorem lidx15 (b : Fin 64) (n : Fin 256) (k : Fin 64) (v : Fin 2048) : lidx_main_v15 (ix3 b n k) v = ix3 b n v :=
  funext fun a => Fin.ext (by match a with | ⟨0, _⟩ => rfl | ⟨1, _⟩ => rfl | ⟨2, _⟩ => rfl)
private theorem ridx15 (b : Fin 64) (n : Fin 256) (k : Fin 64) (v : Fin 2048) : ridx_main_v15 (ix3 b n k) v = ix2 k v :=
  funext fun a => Fin.ext (by match a with | ⟨0, _⟩ => rfl | ⟨1, _⟩ => rfl)
private theorem idx16_17 (b : Fin 64) (n : Fin 256) (k : Fin 64) : idx_main_v16 (idx_main_v17 (ix3 b n k)) = ix1 k :=
  funext fun a => Fin.ext (by match a with | ⟨0, _⟩ => rfl)
private theorem lidx20 (b : Fin 64) (n m : Fin 256) (k : Fin 64) : lidx_main_v20 (ix3 b n m) k = ix3 b n k :=
  funext fun a => Fin.ext (by match a with | ⟨0, _⟩ => rfl | ⟨1, _⟩ => rfl | ⟨2, _⟩ => rfl)
private theorem ridx20 (b : Fin 64) (n m : Fin 256) (k : Fin 64) : ridx_main_v20 (ix3 b n m) k = ix3 b m k :=
  funext fun a => Fin.ext (by match a with | ⟨0, _⟩ => rfl | ⟨1, _⟩ => rfl | ⟨2, _⟩ => rfl)
private theorem idx27 (b : Fin 64) (m n : Fin 256) : idx_main_v27 (ix2 b m) n = ix3 b n m :=
  funext fun a => Fin.ext (by match a with | ⟨0, _⟩ => rfl | ⟨1, _⟩ => rfl | ⟨2, _⟩ => rfl)
private theorem idx31_32 (b : Fin 64) (n m : Fin 256) : idx_main_v31 (idx_main_v32 (ix3 b n m)) = ix2 b m :=
  funext fun a => Fin.ext (by match a with | ⟨0, _⟩ => rfl | ⟨1, _⟩ => rfl)
private theorem idx34_35 (b : Fin 64) (n m : Fin 256) : idx_main_v34 (idx_main_v35 (ix3 b n m)) = ix2 b n :=
  funext fun a => Fin.ext (by match a with | ⟨0, _⟩ => rfl | ⟨1, _⟩ => rfl)
private theorem idx45_46 (b : Fin 64) (n m : Fin 256) : idx_main_v45 (idx_main_v46 (ix3 b n m)) = ix2 n m :=
  funext fun a => Fin.ext (by match a with | ⟨0, _⟩ => rfl | ⟨1, _⟩ => rfl)
private theorem lidx48 (b : Fin 64) (n : Fin 256) (q : Fin 2048) (m : Fin 256) : lidx_main_v48 (ix3 b n q) m = ix3 b n m :=
  funext fun a => Fin.ext (by match a with | ⟨0, _⟩ => rfl | ⟨1, _⟩ => rfl | ⟨2, _⟩ => rfl)
private theorem ridx48 (b : Fin 64) (n : Fin 256) (q : Fin 2048) (m : Fin 256) : ridx_main_v48 (ix3 b n q) m = ix3 b m q :=
  funext fun a => Fin.ext (by match a with | ⟨0, _⟩ => rfl | ⟨1, _⟩ => rfl | ⟨2, _⟩ => rfl)
private theorem idx49 (b : Fin 64) (q : Fin 2048) (n : Fin 256) : idx_main_v49 (ix2 b q) n = ix3 b n q :=
  funext fun a => Fin.ext (by match a with | ⟨0, _⟩ => rfl | ⟨1, _⟩ => rfl | ⟨2, _⟩ => rfl)

/-! ## The two rectified projections -/

/-- The reference's "right" array at (b, n, k): the rectified projection of row n of batch b onto row k of the first matrix. -/
theorem right_apply (b : Fin 64) (n : Fin 256) (k : Fin 64) :
    val_main_v14 (F := Ideal) x0 x1 x2 x3 (ix3 b n k) = Corr.proj (fun n v => x0 (ix3 b n v)) (fun k v => val_main_v4 (F := Ideal) x1 x2 (ix2 k v)) (fun k => x3 (ix1 k)) n k := by
  rw [val_main_v14_apply, val_main_v13_apply, val_main_v10_apply, val_main_v12_apply, val_main_v11_apply,
    val_main_call2_v0_apply, val_main_call2_cst_apply]
  simp only [lidx10, ridx10, idx11_12, Ideal.maximumf_def, Ideal.addf_def, Ideal.ofBits_def, Corr.ofBits_zero]
  rfl

/-- The reference's "left" array at (b, n, k): the same with the second matrix and its bias. -/
theorem left_apply (b : Fin 64) (n : Fin 256) (k : Fin 64) :
    val_main_v19 (F := Ideal) x0 x4 x5 x6 (ix3 b n k) = Corr.proj (fun n v => x0 (ix3 b n v)) (fun k v => val_main_v9 (F := Ideal) x4 x5 (ix2 k v)) (fun k => x6 (ix1 k)) n k := by
  rw [val_main_v19_apply, val_main_v18_apply, val_main_v15_apply, val_main_v17_apply, val_main_v16_apply,
    val_main_call3_v0_apply, val_main_call3_cst_apply]
  simp only [lidx15, ridx15, idx16_17, Ideal.maximumf_def, Ideal.addf_def, Ideal.ofBits_def, Corr.ofBits_zero]
  rfl

/-- The full product left * right^T at (b, n, m). -/
theorem uncorr_apply (b : Fin 64) (n m : Fin 256) :
    val_main_v20 (F := Ideal) x0 x1 x2 x3 x4 x5 x6 (ix3 b n m) = ∑ k, Corr.proj (fun n v => x0 (ix3 b n v)) (fun k v => val_main_v9 (F := Ideal) x4 x5 (ix2 k v)) (fun k => x6 (ix1 k)) n k * Corr.proj (fun n v => x0 (ix3 b n v)) (fun k v => val_main_v4 (F := Ideal) x1 x2 (ix2 k v)) (fun k => x3 (ix1 k)) m k := by
  rw [val_main_v20_apply]
  simp only [lidx20, ridx20, left_apply, right_apply]

/-! ## The equality mask and the diagonal -/

/-- Two row numbers below 256 have the same 32-bit word only if they are the same row. -/
private theorem word_eq_iff (n m : Fin 256) : BitVec.ofNat 32 n.val = BitVec.ofNat 32 m.val ↔ n = m := by
  constructor
  · intro h
    have e := congrArg BitVec.toNat h
    simp only [BitVec.toNat_ofNat] at e
    have hn := n.isLt
    have hm := m.isLt
    exact Fin.ext (by omega)
  · rintro rfl; rfl

/-- The equality comparison of two row numbers is the bit of n = m. -/
private theorem cmp_word (n m : Fin 256) :
    IntOp.cmpi .eq (BitVec.ofNat 32 n.val) (BitVec.ofNat 32 m.val) = if n = m then 1#1 else 0#1 := by
  by_cases h : n = m
  · rw [if_pos h]; exact IntOp.cmpi_eq.mpr ((word_eq_iff n m).mpr h)
  · rw [if_neg h]
    exact eq_zero_of_ne_one (fun e => h ((word_eq_iff n m).mp (IntOp.cmpi_eq.mp e)))

/-- The mask at (b, n, m) is the bit of n = m. -/
private theorem mask_apply (b : Fin 64) (n m : Fin 256) :
    val_main_v24 (F := Ideal) (ix3 b n m) = if n = m then 1#1 else 0#1 := by
  rw [val_main_v24_apply, val_main_v23_apply, val_main_v21_apply, val_main_v22_apply]
  exact cmp_word n m

/-- The masked product keeps the diagonal entries and is zero elsewhere. -/
theorem masked_apply (b : Fin 64) (n m : Fin 256) :
    val_main_v26 (F := Ideal) x0 x1 x2 x3 x4 x5 x6 (ix3 b n m)
      = if n = m then ∑ k, Corr.proj (fun n v => x0 (ix3 b n v)) (fun k v => val_main_v9 (F := Ideal) x4 x5 (ix2 k v)) (fun k => x6 (ix1 k)) n k * Corr.proj (fun n v => x0 (ix3 b n v)) (fun k v => val_main_v4 (F := Ideal) x1 x2 (ix2 k v)) (fun k => x3 (ix1 k)) m k else 0 := by
  rw [val_main_v26_apply, mask_apply, uncorr_apply, val_main_v25_apply, val_main_cst_apply]
  by_cases h : n = m
  · rw [if_pos h, if_pos h]; exact select_one _ _
  · rw [if_neg h, if_neg h, select_zero]
    simp only [Ideal.ofBits_def, Corr.ofBits_zero]

/-- Summing the masked product over its first row index picks out the diagonal: the row-wise product of left and right. -/
theorem diag_apply (b : Fin 64) (m : Fin 256) :
    val_main_v27 (F := Ideal) x0 x1 x2 x3 x4 x5 x6 (ix2 b m) = ∑ k, Corr.proj (fun n v => x0 (ix3 b n v)) (fun k v => val_main_v9 (F := Ideal) x4 x5 (ix2 k v)) (fun k => x6 (ix1 k)) m k * Corr.proj (fun n v => x0 (ix3 b n v)) (fun k v => val_main_v4 (F := Ideal) x1 x2 (ix2 k v)) (fun k => x3 (ix1 k)) m k := by
  rw [val_main_v27_apply, val_main_cst_0_apply]
  simp only [idx27, masked_apply, Ideal.ofBits_def, Corr.ofBits_zero, zero_add]
  rw [Finset.sum_ite_eq' Finset.univ m (fun n => ∑ k, Corr.proj (fun n v => x0 (ix3 b n v)) (fun k v => val_main_v9 (F := Ideal) x4 x5 (ix2 k v)) (fun k => x6 (ix1 k)) n k * Corr.proj (fun n v => x0 (ix3 b n v)) (fun k v => val_main_v4 (F := Ideal) x1 x2 (ix2 k v)) (fun k => x3 (ix1 k)) m k)]
  simp only [Finset.mem_univ, if_true]

/-- The normaliser at (b, n). -/
theorem d_apply (b : Fin 64) (n : Fin 256) :
    val_main_v30 (F := Ideal) x0 x1 x2 x3 x4 x5 x6 (ix2 b n) = Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) n := by
  rw [val_main_v30_apply, val_main_v29_apply, val_main_v28_apply, val_main_cst_1_apply, diag_apply]
  simp only [Ideal.hostUnary_rsqrt_def, Ideal.addf_def, Ideal.ofBits_def]
  rfl

/-- The product scaled on both sides at (b, n, m). -/
theorem corr_apply (b : Fin 64) (n m : Fin 256) :
    val_main_v36 (F := Ideal) x0 x1 x2 x3 x4 x5 x6 (ix3 b n m)
      = (Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) m * ∑ k, Corr.proj (fun n v => x0 (ix3 b n v)) (fun k v => val_main_v9 (F := Ideal) x4 x5 (ix2 k v)) (fun k => x6 (ix1 k)) n k * Corr.proj (fun n v => x0 (ix3 b n v)) (fun k v => val_main_v4 (F := Ideal) x1 x2 (ix2 k v)) (fun k => x3 (ix1 k)) m k) * Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) n := by
  rw [val_main_v36_apply, val_main_v33_apply, val_main_v32_apply, val_main_v31_apply, val_main_v35_apply,
    val_main_v34_apply]
  simp only [idx31_32, idx34_35, d_apply, uncorr_apply, Ideal.mulf_def]

/-! ## One plus the identity matrix, and the coefficient -/

/-- One plus the identity matrix at (n, m): the converted bit of n = m is 1 or 0. -/
private theorem eye_apply (n m : Fin 256) :
    val_main_v44 (F := Ideal) (ix2 n m) = Corr.c1 + (if n = m then (1 : EReal) else 0) := by
  rw [val_main_v44_apply, val_main_v43_apply, val_main_cst_2_apply, val_main_v42_apply, val_main_v41_apply,
    val_main_v40_apply, val_main_v39_apply, val_main_c_apply, val_main_v37_apply, val_main_v38_apply]
  show Ideal.ofBits .f32 0x3F800000#32
      + (((IntOp.cmpi .eq (BitVec.ofNat 32 n.val + 0#32) (BitVec.ofNat 32 m.val)).toNat : ℝ) : EReal) = _
  rw [BitVec.add_zero, cmp_word]
  by_cases h : n = m
  · rw [if_pos h, if_pos h]
    show _ + (((1 : ℕ) : ℝ) : EReal) = _
    rw [Nat.cast_one, EReal.coe_one]; rfl
  · rw [if_neg h, if_neg h]
    show _ + (((0 : ℕ) : ℝ) : EReal) = _
    rw [Nat.cast_zero, EReal.coe_zero]; rfl

/-- The coefficient of row m in row n of the matrix form, at (b, n, m). -/
theorem coef_apply (b : Fin 64) (n m : Fin 256) :
    val_main_v47 (F := Ideal) x0 x1 x2 x3 x4 x5 x6 (ix3 b n m) = ((Corr.c1 + (if n = m then (1 : EReal) else 0)) - (Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) m * ∑ k, Corr.proj (fun n v => x0 (ix3 b n v)) (fun k v => val_main_v9 (F := Ideal) x4 x5 (ix2 k v)) (fun k => x6 (ix1 k)) n k * Corr.proj (fun n v => x0 (ix3 b n v)) (fun k v => val_main_v4 (F := Ideal) x1 x2 (ix2 k v)) (fun k => x3 (ix1 k)) m k) * Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) n) := by
  rw [val_main_v47_apply, val_main_v46_apply, val_main_v45_apply, idx45_46, eye_apply, corr_apply]
  rfl

/-! ## The last product, the sum over rows and the division -/

/-- The coefficient matrix times the slab at (b, n, q). -/
theorem prod_apply (b : Fin 64) (n : Fin 256) (q : Fin 2048) :
    val_main_v48 (F := Ideal) x0 x1 x2 x3 x4 x5 x6 (ix3 b n q) = ∑ m, ((Corr.c1 + (if n = m then (1 : EReal) else 0)) - (Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) m * ∑ k, Corr.proj (fun n v => x0 (ix3 b n v)) (fun k v => val_main_v9 (F := Ideal) x4 x5 (ix2 k v)) (fun k => x6 (ix1 k)) n k * Corr.proj (fun n v => x0 (ix3 b n v)) (fun k v => val_main_v4 (F := Ideal) x1 x2 (ix2 k v)) (fun k => x3 (ix1 k)) m k) * Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) n) * x0 (ix3 b m q) := by
  rw [val_main_v48_apply]
  simp only [lidx48, ridx48, coef_apply]

/-- Its sum over the rows n at (b, q). -/
theorem rowsum_apply (b : Fin 64) (q : Fin 2048) :
    val_main_v49 (F := Ideal) x0 x1 x2 x3 x4 x5 x6 (ix2 b q) = ∑ n, ∑ m, ((Corr.c1 + (if n = m then (1 : EReal) else 0)) - (Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) m * ∑ k, Corr.proj (fun n v => x0 (ix3 b n v)) (fun k v => val_main_v9 (F := Ideal) x4 x5 (ix2 k v)) (fun k => x6 (ix1 k)) n k * Corr.proj (fun n v => x0 (ix3 b n v)) (fun k v => val_main_v4 (F := Ideal) x1 x2 (ix2 k v)) (fun k => x3 (ix1 k)) m k) * Corr.dvec (fun n v => x0 (ix3 b n v)) (fun k v => val_main_v4 (F := Ideal) x1 x2 (ix2 k v)) (fun k v => val_main_v9 (F := Ideal) x4 x5 (ix2 k v)) (fun k => x3 (ix1 k)) (fun k => x6 (ix1 k)) n) * x0 (ix3 b m q) := by
  rw [val_main_v49_apply, val_main_cst_3_apply]
  simp only [idx49, prod_apply, Ideal.ofBits_def, Corr.ofBits_zero, zero_add]

end Stages

theorem v51_apply (x0 : (⟨S64x256x2048, .f32⟩ : BufTy).Contents (Elt Ideal)) (x1 : (⟨S64x2048, .f32⟩ : BufTy).Contents (Elt Ideal)) (x2 x3 : (⟨S64, .f32⟩ : BufTy).Contents (Elt Ideal)) (x4 : (⟨S64x2048, .f32⟩ : BufTy).Contents (Elt Ideal)) (x5 x6 : (⟨S64, .f32⟩ : BufTy).Contents (Elt Ideal)) (b : Fin 64) (q : Fin 2048) :
    val_main_v51 (F := Ideal) x0 x1 x2 x3 x4 x5 x6 (ix2 b q)
      = Corr.featR (fun n v => x0 (ix3 b n v)) (fun k v => val_main_v4 (F := Ideal) x1 x2 (ix2 k v))
          (fun k v => val_main_v9 (F := Ideal) x4 x5 (ix2 k v)) (fun k => x3 (ix1 k)) (fun k => x6 (ix1 k)) q := by
  rw [val_main_v51_apply, val_main_v50_apply, val_main_cst_4_apply, rowsum_apply]
  simp only [Ideal.hostDivf_def, Ideal.ofBits_def]
  rfl

end Cert.ReferenceIdeal.Feat

end
-- ==== Proof.Finite.lean ====
/-
  What the precondition says of the first seven arguments: every entry is a real number. The precondition is the
  conjunction, argument by argument, of "every |x| is below +infinity"; an extended real whose absolute value is below
  +infinity is neither infinity.
-/
import proofs.«107245_j37211596653081_1_alg».proof.Proof.Gen.Pre_finite_inputs
import Idealize.ShloMosaic.Lib.ValueIdx
import Idealize.ShloMosaic.Lib.ReduceAll
import Idealize.ShloMosaic.PureOps.Ideal.Laws

noncomputable section

namespace Cert.Finite

open Cert.Pre_finite_inputs Cert.Pre_finite_inputs.Gen Idealize.ShloMosaic Idealize.ShloMosaic.ValueIdx

/-- The rank-0 shape has one index. -/
instance subsingleton_scalar_idx : Subsingleton S_.Idx := ⟨fun a b => funext fun d => d.elim0⟩

/-- The word 0x7F800000 (sign 0, exponent all ones, significand 0) denotes +infinity. -/
theorem inf_word : Ideal.ofBits .f32 0x7F800000#32 = (⊤ : EReal) := by
  simp [Ideal.ofBits, Ideal.ieee]

/-- An extended real whose absolute value max x (-x) is below +infinity is a real: for x = -infinity the absolute value
    is -(-infinity) = +infinity, for x = +infinity it is x itself. -/
theorem real_of_abs_lt_top (x : EReal) (hx : max x (-x) < ⊤) : ∃ r : ℝ, x = (r : EReal) := by
  induction x using EReal.rec with
  | bot => simp at hx
  | coe r => exact ⟨r, rfl⟩
  | top => simp at hx

/-- A conjunction of two one-bit arrays that reads 1 at an index has both conjuncts 1 there. -/
theorem andi_one {s : Shape} (x y : IVec s 1) (j : s.Idx) (e : andi x y j = 1#1) : x j = 1#1 ∧ y j = 1#1 :=
  IntOp.andi_eq_one.1 e

/-- One argument's conjunct, over any shape: if the reduction by "and" over all axes of the array of comparisons
    |a i| < +infinity is 1, every entry of a is a real. Each comparison is 1, since the reduction has a single result
    index; the broadcast constant reads +infinity everywhere; and |a i| < +infinity leaves only a real. -/
theorem all_real {S : Shape} (a : FVec Ideal S .f32) {axes : List (Fin S.rank)}
    (hb : S_.BroadcastsInDim S (![] : Fin 0 → Fin S.rank)) (hr : S.ReducesTo axes S_) (hS : 0 < S_.numel)
    (e : Host.reduce IntOp.andi (cmpf .olt (Host.absf a) (broadcastInDim S ![] hb (constant S_ .f32 0x7F800000#32)))
      (constantI S_ 1 1#1) hr hS ix0 = 1#1) : ∀ i, ∃ r : ℝ, a i = (r : EReal) := by
  intro i
  have h1 := Host.reduce_andi_all _ _ hr hS ix0 e i
  have h2 : Ideal.cmp .olt (max (a i) (-(a i))) (Ideal.ofBits .f32 0x7F800000#32) = 1#1 := h1
  rw [inf_word] at h2
  refine real_of_abs_lt_top (a i) ?_
  by_contra hc
  simp [Ideal.cmp, hc] at h2

theorem real_of_pre (a0 : FVec Ideal S64x256x2048 .f32) (a1 : FVec Ideal S64x2048 .f32) (a2 a3 : FVec Ideal S64 .f32) (a4 : FVec Ideal S64x2048 .f32) (a5 a6 : FVec Ideal S64 .f32) (a7 : FVec Ideal S1024x2048 .f32) (a8 a9 a10 : FVec Ideal S1024 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  -- the precondition at its one index, its eleven conjuncts in view
  have h0 := congrFun h ix0
  dsimp only [fn, fn_part1, fn_part2, fn_part3] at h0
  -- the conjuncts of arguments 10, 9, 8, 7 are split off and dropped
  obtain ⟨h0, -⟩ := andi_one _ _ _ h0
  obtain ⟨h0, -⟩ := andi_one _ _ _ h0
  obtain ⟨h0, -⟩ := andi_one _ _ _ h0
  obtain ⟨h0, -⟩ := andi_one _ _ _ h0
  -- those of arguments 6 down to 0 are kept
  obtain ⟨h0, e6⟩ := andi_one _ _ _ h0
  obtain ⟨h0, e5⟩ := andi_one _ _ _ h0
  obtain ⟨h0, e4⟩ := andi_one _ _ _ h0
  obtain ⟨h0, e3⟩ := andi_one _ _ _ h0
  obtain ⟨h0, e2⟩ := andi_one _ _ _ h0
  obtain ⟨e0, e1⟩ := andi_one _ _ _ h0
  exact ⟨all_real a0 _ _ _ e0, all_real a1 _ _ _ e1, all_real a2 _ _ _ e2, all_real a3 _ _ _ e3,
    all_real a4 _ _ _ e4, all_real a5 _ _ _ e5, all_real a6 _ _ _ e6⟩

end Cert.Finite

end
-- ==== Proof.Bridge.lean ====
/-
  The two programs compute the same result.

  Under the precondition every entry of the slab, of the two weight-normalisation argument pairs and of the two biases
  is a real number, so both weight-normalised matrices have real entries; then the column-sum form the kernel's output
  array holds, batch by batch, is the matrix form the reference computes, entry by entry. Both programs then apply the
  same linear layer and batch normalisation to equal feature tables.
-/
import proofs.«107245_j37211596653081_1_alg».proof.Defs
import proofs.«107245_j37211596653081_1_alg».proof.Proof.Gen.KernelIdeal.Frame
import proofs.«107245_j37211596653081_1_alg».proof.Proof.Gen.ReferenceIdeal.Run
import proofs.«107245_j37211596653081_1_alg».proof.Proof.Gen.ReferenceIdeal.Read
import proofs.«107245_j37211596653081_1_alg».proof.Proof.Gen.Pre_finite_inputs
import proofs.«107245_j37211596653081_1_alg».proof.Proof.Spec
import proofs.«107245_j37211596653081_1_alg».proof.Proof.Lift
import proofs.«107245_j37211596653081_1_alg».proof.Proof.WeightNorm
import proofs.«107245_j37211596653081_1_alg».proof.Proof.KBlocks
import proofs.«107245_j37211596653081_1_alg».proof.Proof.KHost
import proofs.«107245_j37211596653081_1_alg».proof.Proof.RefHead
import proofs.«107245_j37211596653081_1_alg».proof.Proof.RefFeat
import proofs.«107245_j37211596653081_1_alg».proof.Proof.Tail
import proofs.«107245_j37211596653081_1_alg».proof.Proof.Finite
import Idealize.ShloMosaic.Lib.ValueIdx

set_option maxRecDepth 16384

noncomputable section

namespace Cert.Bridge

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- Under the precondition the kernel's output array, read as a 64 x 2048 table, is the reference's feature table. -/
theorem feats_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1) :
    Cert.KernelIdeal.Host.flat ((dats m 0 c).arrAt 5 cfg0.N)
      = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨h0, h1, h2, h3, h4, h5, h6⟩ := Cert.Finite.real_of_pre _ _ _ _ _ _ _ _ _ _ _ hpre
  funext j
  obtain ⟨b, q, rfl⟩ : ∃ (b : Fin 64) (q : Fin 2048), j = ix2 b q := ⟨j 0, j 1, eq_ix2 j⟩
  rw [Cert.KernelIdeal.Host.flat_apply, Cert.KernelIdeal.Blocks.final5 m c, Cert.ReferenceIdeal.Feat.v51_apply]
  -- the arrays the region found are the arguments, the weight-normalised matrices and the biases
  have e0 : (fun (n : Fin 256) (v : Fin 2048) => V m c main_arg0 (ix3 b n v)) = fun n v => (m ((c : Thread nD τ).loc main_arg0)) (ix3 b n v) := by
    rw [V_main_arg0]
  have e1 : (fun (k : Fin 64) (v : Fin 2048) => V m c main_v5 (ix2 k v))
      = fun k v => Cert.ReferenceIdeal.Read.val_main_v4 (F := Ideal) (m ((c : Thread nD τ).loc main_arg1)) (m ((c : Thread nD τ).loc main_arg2)) (ix2 k v) := by
    rw [Cert.KernelIdeal.Host.V_v5]
  have e2 : (fun (k : Fin 64) (v : Fin 2048) => V m c main_v11 (ix2 k v))
      = fun k v => Cert.ReferenceIdeal.Read.val_main_v9 (F := Ideal) (m ((c : Thread nD τ).loc main_arg4)) (m ((c : Thread nD τ).loc main_arg5)) (ix2 k v) := by
    rw [Cert.KernelIdeal.Host.V_v11]
  have e3 : (fun (k : Fin 64) => V m c main_v12 (ix2 (0 : Fin 1) k)) = fun k => (m ((c : Thread nD τ).loc main_arg3)) (ix1 k) :=
    funext fun k => Cert.KernelIdeal.Host.V_v12_apply m c k
  have e4 : (fun (k : Fin 64) => V m c main_v13 (ix2 (0 : Fin 1) k)) = fun k => (m ((c : Thread nD τ).loc main_arg6)) (ix1 k) :=
    funext fun k => Cert.KernelIdeal.Host.V_v13_apply m c k
  show Corr.featK (fun n v => V m c main_arg0 (ix3 b n v)) (fun k v => V m c main_v5 (ix2 k v))
      (fun k v => V m c main_v11 (ix2 k v)) (fun k => V m c main_v12 (ix2 (0 : Fin 1) k))
      (fun k => V m c main_v13 (ix2 (0 : Fin 1) k)) q = _
  rw [e0, e1, e2, e3, e4]
  -- both weight-normalised matrices have real entries
  have hW1 : ∀ (k : Fin 64) (v : Fin 2048), ∃ r : ℝ,
      Cert.ReferenceIdeal.Read.val_main_v4 (F := Ideal) (m ((c : Thread nD τ).loc main_arg1)) (m ((c : Thread nD τ).loc main_arg2)) (ix2 k v) = (r : EReal) := fun k v => by
    rw [Cert.ReferenceIdeal.Head.v4_apply]
    exact Corr.wnorm_real _ _ (fun k x => h1 (ix2 k x)) (fun k => h2 (ix1 k)) k v
  have hW2 : ∀ (k : Fin 64) (v : Fin 2048), ∃ r : ℝ,
      Cert.ReferenceIdeal.Read.val_main_v9 (F := Ideal) (m ((c : Thread nD τ).loc main_arg4)) (m ((c : Thread nD τ).loc main_arg5)) (ix2 k v) = (r : EReal) := fun k v => by
    rw [Cert.ReferenceIdeal.Head.v9_apply]
    exact Corr.wnorm_real _ _ (fun k x => h4 (ix2 k x)) (fun k => h5 (ix1 k)) k v
  exact Corr.featK_eq_featR _ _ _ _ _ (fun n v => h0 (ix3 b n v)) hW1 hW2 (fun k => h3 (ix1 k)) (fun k => h6 (ix1 k)) q

/-- The kernel's run ends with the result at the shared tail of its own feature table and the arguments unchanged; the
    reference's at the shared tail of its feature table; under the precondition the two tables are one. -/
theorem algebraic : Cert.algebraic_KernelIdeal_ReferenceIdeal := by
  intro m ρ m' ρ' hpre hagree
  refine ⟨fun c => Cert.Tail.tailOf (Cert.KernelIdeal.Host.flat ((dats m 0 c).arrAt 5 cfg0.N)) (m ((c : Thread nD τ).loc main_arg7)) (m ((c : Thread nD τ).loc main_arg8)) (m ((c : Thread nD τ).loc main_arg9)) (m ((c : Thread nD τ).loc main_arg10)), ?_, ?_⟩
  · refine (θ_run Cert.KernelIdeal.defs _ _).mono (fun r h c => ?_) (run_main m ρ)
    exact ⟨((h c).2 main_v45 (Pipeline.mem_restRefs_of main_v45 (by decide) (by decide))).trans (Cert.KernelIdeal.Host.tail_eq m c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v81_eq, Cert.Tail.v81_eq_tail]
    obtain ⟨a0, a1, a2, a3, a4, a5, a6, a7, a8, a9, a10⟩ := hagree c
    rw [a0, a1, a2, a3, a4, a5, a6, a7, a8, a9, a10]
    exact congrArg (fun f => Cert.Tail.tailOf f (m ((c : Thread nD τ).loc main_arg7)) (m ((c : Thread nD τ).loc main_arg8)) (m ((c : Thread nD τ).loc main_arg9)) (m ((c : Thread nD τ).loc main_arg10))) (feats_eq m c (hpre c)).symm

end Cert.Bridge

end
-- ==== Proof.lean ====
/-
  The kernel computes, for each of 64 batches, the mean over the 256 rows of (1 + I - D) V, where V is the batch's
  256 x 2048 slab and D is the low-rank correlation left * right^T of two rectified weight-normalised projections of V,
  normalised on both sides by the inverse square root of its stabilised diagonal; then a linear layer and a batch
  normalisation over the 64 batches. The reference forms the 256 x 256 matrix and multiplies; the kernel never does:
  the mean over rows of M V is (the column sums of M) V / 256, and the column sums of 1 + I - D are
  257 - d m * (right m . sum_n d n * left n), computed from the two 256 x 64 projections alone.

  Proof/Spec.lean writes both forms; Proof/RealAlg.lean proves the column-sum identity over the reals and Proof/Lift.lean
  carries it to the extended reals where every entry is real, which the precondition (Proof/Finite.lean) and the
  weight normalisation of real data (Proof/WeightNorm.lean: a zero row stays zero whatever its scale) give.
  Proof/KProj.lean, KPay2.lean, KPay.lean read one grid point's block as the column-sum form, Proof/KBlocks.lean the
  whole output array; Proof/RefHead.lean and RefFeat.lean read the reference's stages as the matrix form;
  Proof/KHost.lean and Proof/Tail.lean say the lines around the region are the reference's own head and tail;
  Proof/Bridge.lean joins them. The three frames are the generated ones (the reference's its generated run with the
  result dropped); the idealisation rewrote nothing, so `preserves` has nothing to state.
-/
import proofs.«107245_j37211596653081_1_alg».proof.Defs
import proofs.«107245_j37211596653081_1_alg».proof.Proof.Gen.Kernel
import proofs.«107245_j37211596653081_1_alg».proof.Proof.Gen.Kernel.Skeleton
import proofs.«107245_j37211596653081_1_alg».proof.Proof.Gen.Kernel.Launch
import proofs.«107245_j37211596653081_1_alg».proof.Proof.Gen.Kernel.Points
import proofs.«107245_j37211596653081_1_alg».proof.Proof.Gen.Kernel.Frame
import proofs.«107245_j37211596653081_1_alg».proof.Proof.Gen.KernelIdeal
import proofs.«107245_j37211596653081_1_alg».proof.Proof.Gen.KernelIdeal.Skeleton
import proofs.«107245_j37211596653081_1_alg».proof.Proof.Gen.KernelIdeal.Launch
import proofs.«107245_j37211596653081_1_alg».proof.Proof.Gen.KernelIdeal.Points
import proofs.«107245_j37211596653081_1_alg».proof.Proof.Gen.KernelIdeal.Frame
import proofs.«107245_j37211596653081_1_alg».proof.Proof.Gen.ReferenceIdeal
import proofs.«107245_j37211596653081_1_alg».proof.Proof.Gen.ReferenceIdeal.Run
import proofs.«107245_j37211596653081_1_alg».proof.Proof.Gen.ReferenceIdeal.Read
import proofs.«107245_j37211596653081_1_alg».proof.Proof.Gen.Pre_finite_inputs
import proofs.«107245_j37211596653081_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
